-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1 : Shape := ⟨2, ![256, 1]⟩
abbrev S256x128000 : Shape := ⟨2, ![256, 128000]⟩
abbrev S128000x64 : Shape := ⟨2, ![128000, 64]⟩
abbrev S_ : Shape := ⟨0, ![]⟩

class Facts : Prop where
  bcast_S_S256x128000 : S_.BroadcastsInDim S256x128000 (![] : Fin 0 → Fin S256x128000.rank)
  reducesTo_S256x128000_S_d0_1 : S256x128000.ReducesTo [0, 1] S_
  h_S_ : 0 < S_.numel
  bcast_S_S128000x64 : S_.BroadcastsInDim S128000x64 (![] : Fin 0 → Fin S128000x64.rank)
  reducesTo_S128000x64_S_d0_1 : S128000x64.ReducesTo [0, 1] S_

variable [Facts]

def fn {F : FTy → Type} [FloatOps F] (main_arg0 : IVec S256x1 32) (main_arg1 : FVec F S256x128000 .f32) (main_arg2 : FVec F S128000x64 .f32) : IVec S_ 1 :=
  let main_v0 : FVec F S256x128000 .f32 := Host.absf main_arg1
  let main_cst : FVec F S_ .f32 := constant S_ .f32 0x7F800000#32
  let main_v1 : FVec F S256x128000 .f32 := broadcastInDim S256x128000 ![] bcast_S_S256x128000 main_cst
  let main_v2 : IVec S256x128000 1 := cmpf .olt main_v0 main_v1
  let main_c : IVec S_ 1 := constantI S_ 1 1#1
  let main_v3 : IVec S_ 1 := (fun x v => Host.reduce IntOp.andi x v reducesTo_S256x128000_S_d0_1 h_S_) main_v2 main_c
  let main_v4 : FVec F S128000x64 .f32 := Host.absf main_arg2
  let main_cst_0 : FVec F S_ .f32 := constant S_ .f32 0x7F800000#32
  let main_v5 : FVec F S128000x64 .f32 := broadcastInDim S128000x64 ![] bcast_S_S128000x64 main_cst_0
  let main_v6 : IVec S128000x64 1 := cmpf .olt main_v4 main_v5
  let main_c_1 : IVec S_ 1 := constantI S_ 1 1#1
  let main_v7 : IVec S_ 1 := (fun x v => Host.reduce IntOp.andi x v reducesTo_S128000x64_S_d0_1 h_S_) main_v6 main_c_1
  let main_v8 : IVec S_ 1 := andi main_v3 main_v7
  main_v8
-- ==== Kernel.lean ====
abbrev S256x1 : Shape := ⟨2, ![256, 1]⟩
abbrev S256x128000 : Shape := ⟨2, ![256, 128000]⟩
abbrev S128000x64 : Shape := ⟨2, ![128000, 64]⟩
abbrev S256x64 : Shape := ⟨2, ![256, 64]⟩
abbrev S1x1 : Shape := ⟨2, ![1, 1]⟩
abbrev S256x2560 : Shape := ⟨2, ![256, 2560]⟩
abbrev S2560x64 : Shape := ⟨2, ![2560, 64]⟩
abbrev S256 : Shape := ⟨1, ![256]⟩
abbrev S1 : Shape := ⟨1, ![1]⟩
abbrev S_ : Shape := ⟨0, ![]⟩

abbrev nBuf : Space → Nat
  | .hbm => 11
  | .vmem => 20
  | .smem => 0
  | _ => 0

abbrev bufTy : (tb : Table) → Fin (tcTables nBuf tb) → BufTy
  | .hbm, ⟨0, _⟩ => ⟨S256x1, .i32⟩
  | .hbm, ⟨1, _⟩ => ⟨S256x128000, .f32⟩
  | .hbm, ⟨2, _⟩ => ⟨S128000x64, .f32⟩
  | .hbm, ⟨3, _⟩ => ⟨S256x64, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S256x128000, .f32⟩
  | .local _ .vmem, ⟨0, _⟩ => ⟨S256x2560, .f32⟩
  | .local _ .vmem, ⟨1, _⟩ => ⟨S256x2560, .f32⟩
  | .local _ .vmem, ⟨2, _⟩ => ⟨S2560x64, .f32⟩
  | .local _ .vmem, ⟨3, _⟩ => ⟨S2560x64, .f32⟩
  | .local _ .vmem, ⟨4, _⟩ => ⟨S256x64, .f32⟩
  | .local _ .vmem, ⟨5, _⟩ => ⟨S1x1, .f32⟩
  | .local _ .vmem, ⟨6, _⟩ => ⟨S256x64, .f32⟩
  | .local _ .vmem, ⟨7, _⟩ => ⟨S2560x64, .f32⟩
  | .local _ .vmem, ⟨8, _⟩ => ⟨S2560x64, .f32⟩
  | .local _ .vmem, ⟨9, _⟩ => ⟨S256x2560, .f32⟩
  | .local _ .vmem, ⟨10, _⟩ => ⟨S256x2560, .f32⟩
  | .local _ .vmem, ⟨11, _⟩ => ⟨S1x1, .f32⟩
  | .local _ .vmem, ⟨12, _⟩ => ⟨S256x64, .f32⟩
  | .local _ .vmem, ⟨13, _⟩ => ⟨S2560x64, .f32⟩
  | .local _ .vmem, ⟨14, _⟩ => ⟨S2560x64, .f32⟩
  | .local _ .vmem, ⟨15, _⟩ => ⟨S256x2560, .f32⟩
  | .local _ .vmem, ⟨16, _⟩ => ⟨S256x2560, .f32⟩
  | .local _ .vmem, ⟨17, _⟩ => ⟨S1x1, .f32⟩
  | .local _ .vmem, ⟨18, _⟩ => ⟨S256x2560, .f32⟩
  | .local _ .vmem, ⟨19, _⟩ => ⟨S256x2560, .f32⟩
  | _, _ => ⟨S256x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2560x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2560x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2560 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2560 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S256x64_S256x64_0_0 : ∀ a, (![0, 0] : Fin 2 → Nat) a + S256x64.size a ≤ S256x64.size a
  h_S256x64 : 0 < S256x64.numel
  inb_S1x1_S1x1_0_0 : ∀ a, (![0, 0] : Fin 2 → Nat) a + S1x1.size a ≤ S1x1.size a
  h_S1x1 : 0 < S1x1.numel
  inb_S256x2560_S256x2560_0_0 : ∀ a, (![0, 0] : Fin 2 → Nat) a + S256x2560.size a ≤ S256x2560.size a
  h_S256x2560 : 0 < S256x2560.numel
  inb_S2560x64_S2560x64_0_0 : ∀ a, (![0, 0] : Fin 2 → Nat) a + S2560x64.size a ≤ S2560x64.size a
  h_S2560x64 : 0 < S2560x64.numel
  shapeCasts_S256x64_S256x64 : S256x64.ShapeCasts S256x64
  bitsLt_bf16_f32 : FTy.bits .bf16 < FTy.bits .f32
  reduces_S256x2560_S256 : S256x2560.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S256x2560 : S1x1.Broadcasts S256x2560
  dot_S256x2560_S2560x64_S256x64_1_0_0_1_n_n_wf : DotDims.WF S256x2560 S2560x64 S256x64 [1] [0] [0] [1] [] []
  dot_S256x64_S2560x64_S256x2560_1_1_0_0_n_n_wf : DotDims.WF S256x64 S2560x64 S256x2560 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2560.size a ≤ S256x128000.size a
  hwx0_0 : ∀ i : grid0.Coords, EltTy.bits .f32 = 32 ∨ (Rect.block (s := S256x128000) S256x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x64.size a ≤ S128000x64.size a
  hwx0_1 : ∀ i : grid0.Coords, EltTy.bits .f32 = 32 ∨ (Rect.block (s := S128000x64) S2560x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S256x64.size a
  hwx1_0 : ∀ i : grid1.Coords, EltTy.bits .f32 = 32 ∨ (Rect.block (s := S256x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x64.size a ≤ S128000x64.size a
  hwx1_1 : ∀ i : grid1.Coords, EltTy.bits .f32 = 32 ∨ (Rect.block (s := S128000x64) S2560x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2560.size a ≤ S256x128000.size a
  hwx1_2 : ∀ i : grid1.Coords, EltTy.bits .f32 = 32 ∨ (Rect.block (s := S256x128000) S256x2560.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x64.size a ≤ S128000x64.size a
  hwx2_1 : ∀ i : grid2.Coords, EltTy.bits .f32 = 32 ∨ (Rect.block (s := S128000x64) S2560x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2560.size a ≤ S256x128000.size a
  hwx2_2 : ∀ i : grid2.Coords, EltTy.bits .f32 = 32 ∨ (Rect.block (s := S256x128000) S256x2560.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x2560.size a ≤ S256x128000.size a
  hwx2_4 : ∀ i : grid2.Coords, EltTy.bits .f32 = 32 ∨ (Rect.block (s := S256x128000) S256x2560.size (cc2_transform_4 i) (hinb2_4 i)).WholeWords (EltTy.packing .f32)

variable [Facts₀]

def dot_S256x2560_S2560x64_S256x64_1_0_0_1_n_n : DotDims S256x2560 S2560x64 S256x64 where
  lhsContracting := [1]
  rhsContracting := [0]
  lhsNonContracting := [0]
  rhsNonContracting := [1]
  lhsBatch := []
  rhsBatch := []
  wf := dot_S256x2560_S2560x64_S256x64_1_0_0_1_n_n_wf
def dot_S256x64_S2560x64_S256x2560_1_1_0_0_n_n : DotDims S256x64 S2560x64 S256x2560 where
  lhsContracting := [1]
  rhsContracting := [1]
  lhsNonContracting := [0]
  rhsNonContracting := [0]
  lhsBatch := []
  rhsBatch := []
  wf := dot_S256x64_S2560x64_S256x2560_1_1_0_0_n_n_wf

abbrev win0_0 : Pipeline.Window sig grid0 :=
  Pipeline.Window.ofSpec (Memref.whole main_arg1) S256x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2560x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S256x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2560x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S2560x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x2560.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x2560.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S256x1 : Shape := ⟨2, ![256, 1]⟩
abbrev S256x128000 : Shape := ⟨2, ![256, 128000]⟩
abbrev S128000x64 : Shape := ⟨2, ![128000, 64]⟩
abbrev S256x64 : Shape := ⟨2, ![256, 64]⟩
abbrev S64x128000 : Shape := ⟨2, ![64, 128000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S256x1, .i32⟩
  | .hbm, ⟨1, _⟩ => ⟨S256x128000, .f32⟩
  | .hbm, ⟨2, _⟩ => ⟨S128000x64, .f32⟩
  | .hbm, ⟨3, _⟩ => ⟨S256x64, .f32⟩
  | .hbm, ⟨4, _⟩ => ⟨S64x128000, .f32⟩
  | .hbm, ⟨5, _⟩ => ⟨S256x128000, .f32⟩
  | .hbm, ⟨6, _⟩ => ⟨S256x128000, .f32⟩
  | .hbm, ⟨7, _⟩ => ⟨S256x128000, .f32⟩
  | .hbm, ⟨8, _⟩ => ⟨S_, .f32⟩
  | .hbm, ⟨9, _⟩ => ⟨S_, .f32⟩
  | .hbm, ⟨10, _⟩ => ⟨S256x128000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x128000, .f32⟩
  | .hbm, ⟨17, _⟩ => ⟨S256x128000, .f32⟩
  | .hbm, ⟨18, _⟩ => ⟨S256x128000, .f32⟩
  | .hbm, ⟨19, _⟩ => ⟨S_, .f32⟩
  | .hbm, ⟨20, _⟩ => ⟨S256x128000, .f32⟩
  | .hbm, ⟨21, _⟩ => ⟨S256x128000, .f32⟩
  | .hbm, ⟨22, _⟩ => ⟨S256x128000, .f32⟩
  | _, _ => ⟨S256x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S128000x64_S64x128000_1_0 : S128000x64.Transposes [1, 0] S64x128000
  reducesTo_S256x128000_S_d0_1 : S256x128000.ReducesTo [0, 1] S_
  h_S_ : 0 < S_.numel
  bcast_S_S256x128000 : S_.BroadcastsInDim S256x128000 (![] : Fin 0 → Fin S256x128000.rank)
  dot_S256x128000_S128000x64_S256x64_1_0_0_1_n_n_wf : DotDims.WF S256x128000 S128000x64 S256x64 [1] [0] [0] [1] [] []
  dot_S256x64_S64x128000_S256x128000_1_0_0_1_n_n_wf : DotDims.WF S256x64 S64x128000 S256x128000 [1] [0] [0] [1] [] []

variable [Facts₀]

def dot_S256x128000_S128000x64_S256x64_1_0_0_1_n_n : DotDims S256x128000 S128000x64 S256x64 where
  lhsContracting := [1]
  rhsContracting := [0]
  lhsNonContracting := [0]
  rhsNonContracting := [1]
  lhsBatch := []
  rhsBatch := []
  wf := dot_S256x128000_S128000x64_S256x64_1_0_0_1_n_n_wf
def dot_S256x64_S64x128000_S256x128000_1_0_0_1_n_n : DotDims S256x64 S64x128000 S256x128000 where
  lhsContracting := [1]
  rhsContracting := [0]
  lhsNonContracting := [0]
  rhsNonContracting := [1]
  lhsBatch := []
  rhsBatch := []
  wf := dot_S256x64_S64x128000_S256x128000_1_0_0_1_n_n_wf

class Facts : Prop extends Facts₀ where

variable [Facts]
-- ==== Proof.MintSpec.lean ====
/-
  The rescaled low-rank mint as mathematics: functions of the two float arguments over the extended reals,
  index by index, with no program in sight.

    proj L W        the projection  L·W            (a sum over the 128000 vocabulary positions)
    resid P W L     the residual    P·Wᵀ − L       (a sum over the 64 rank positions, minus the entry of L)
    absMax X        the largest absolute value of X, as a supremum over all its entries
    scaleOf a b     a / max b ε      (ε the f32 machine epsilon, as the literal both programs write)
    blend R L s     R·s + c·(L − R·s)   (c the f32 literal both programs write for 0.4)

  The result both programs compute is  blend R L (scaleOf (absMax L) (absMax R))  with  R = resid (proj L W) W L.

  A maximum is carried by its universal property: a value v is absMax X as soon as, for every bound z,
  v ≤ z exactly when every |X i| ≤ z (`eq_absMax_of_le_iff`); a running maximum started from zero has that
  property because every absolute value is non-negative and the array is not empty.
-/
import Idealize.ShloMosaic.PureOps.Ideal
import Idealize.ShloMosaic.Lib.ValueIdx

noncomputable section

namespace Cert.Mint

open Idealize.ShloMosaic Idealize.ShloMosaic.ValueIdx

/-- The logits' shape, the basis' shape, the projection's shape. -/
abbrev SL : Shape := ⟨2, ![256, 128000]⟩
abbrev SW : Shape := ⟨2, ![128000, 64]⟩
abbrev SP : Shape := ⟨2, ![256, 64]⟩

/-- The absolute value on the extended reals (the ideal instance's: the larger of x and −x). -/
abbrev abs' (x : EReal) : EReal := max x (-x)

theorem abs'_nonneg (x : EReal) : 0 ≤ abs' x := by
  rcases le_total 0 x with h | h
  · exact le_max_of_le_left h
  · exact le_max_of_le_right (by simpa using EReal.neg_le_neg_iff.mpr h)

/-- The projection L·W at (b, r): the sum over the vocabulary positions k of L[b, k] · W[k, r]. -/
def proj (L : SL.Idx → EReal) (W : SW.Idx → EReal) : SP.Idx → EReal :=
  fun i => ∑ k : Fin 128000, L (ix2 (i 0) k) * W (ix2 k (i 1))

/-- The residual P·Wᵀ − L at (b, v): the sum over the rank positions r of P[b, r] · W[v, r], minus L[b, v]. -/
def resid (P : SP.Idx → EReal) (W : SW.Idx → EReal) (L : SL.Idx → EReal) : SL.Idx → EReal :=
  fun i => (∑ r : Fin 64, P (ix2 (i 0) r) * W (ix2 (i 1) r)) - L i

/-- The largest absolute value of an array of the logits' shape. -/
def absMax (X : SL.Idx → EReal) : EReal := Finset.univ.sup fun i => abs' (X i)

/-- The machine epsilon of f32 and the blend weight, as the words both programs write. -/
abbrev eps : EReal := Ideal.ofBits .f32 0x34000000#32
abbrev alpha : EReal := Ideal.ofBits .f32 0x3ECCCCCD#32

/-- The global rescale factor from the two maxima. -/
def scaleOf (a b : EReal) : EReal := Ideal.div a (max b eps)

/-- The lerp of the rescaled residual towards the logits. -/
def blend (R L : SL.Idx → EReal) (s : EReal) : SL.Idx → EReal :=
  fun i => R i * s + alpha * (L i - R i * s)

/-- What both programs compute, as one function of the two float arguments. -/
def mint (L : SL.Idx → EReal) (W : SW.Idx → EReal) : SL.Idx → EReal :=
  blend (resid (proj L W) W L) L (scaleOf (absMax L) (absMax (resid (proj L W) W L)))

theorem absMax_le_iff (X : SL.Idx → EReal) (z : EReal) : absMax X ≤ z ↔ ∀ i, abs' (X i) ≤ z := by
  unfold absMax
  simp [Finset.sup_le_iff]

/-- A value with the universal property of the maximum IS the maximum. -/
theorem eq_absMax_of_le_iff (X : SL.Idx → EReal) (v : EReal) (h : ∀ z, v ≤ z ↔ ∀ i, abs' (X i) ≤ z) : v = absMax X :=
  le_antisymm ((h _).mpr ((absMax_le_iff X _).mp le_rfl)) ((absMax_le_iff X _).mpr ((h _).mp le_rfl))

/-- The maximum is non-negative: the array has an entry, and its absolute value is. -/
theorem absMax_nonneg (X : SL.Idx → EReal) : 0 ≤ absMax X :=
  (abs'_nonneg (X (ix2 (0 : Fin 256) (0 : Fin 128000)))).trans ((absMax_le_iff X _).mp le_rfl _)

/-- Starting a running maximum from zero changes nothing. -/
theorem max_zero_absMax (X : SL.Idx → EReal) : max 0 (absMax X) = absMax X := max_eq_right (absMax_nonneg X)

end Cert.Mint

end
-- ==== Proof.TileOps.lean ====
/-
  One tile of the three passes, read at an index over the extended reals.

  The first pass multiplies a 256×2560 tile of the logits by the matching 2560×64 tile of the basis; the second and
  third multiply the 256×64 projection by the TRANSPOSE of a 2560×64 tile of the basis (the contraction runs over
  the rank axis of both operands). Into a zero accumulator each is a plain sum over the contracted coordinate.
  The two maximum passes take, of a 256×2560 tile, first each row's largest absolute value and then the largest of
  those: a value below a bound z exactly when every entry's absolute value is.
-/
import proofs.«102260_j54838142435803_1_alg».proof.Proof.Gen.KernelIdeal
import proofs.«102260_j54838142435803_1_alg».proof.Proof.MintSpec
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.KernelIdeal.Tile

open Idealize.ShloMosaic Idealize.ShloMosaic.ValueIdx Cert.KernelIdeal
open Cert.KernelIdeal.Facts₀ Cert.KernelIdeal.Facts

/-! ## The operand indices of the two products

  A product's dimension numbers say, for each operand axis, whether it is a free axis (then the operand is read at the
  result index's matching coordinate) or the contracted one (then at the contraction coordinate). For the first
  product the left operand's axes are (free, contracted) and the right's (contracted, free); for the second both
  operands' are (free, contracted): the right operand is read transposed. -/

/-- First product, left operand, axis 0: the result's row. -/
theorem projL_0 (i : S256x64.Idx) (q : dot_S256x2560_S2560x64_S256x64_1_0_0_1_n_n.contr.Idx) :
    (dot_S256x2560_S2560x64_S256x64_1_0_0_1_n_n.lhsIdx i q 0).val = (i 0).val := by
  unfold DotDims.lhsIdx
  rw [dif_neg (show ¬(0 : Fin S256x2560.rank) ∈ dot_S256x2560_S2560x64_S256x64_1_0_0_1_n_n.lhsBatch by decide),
    dif_pos (show (0 : Fin S256x2560.rank) ∈ dot_S256x2560_S2560x64_S256x64_1_0_0_1_n_n.lhsNonContracting by decide)]
  rfl
/-- First product, left operand, axis 1: the contraction coordinate. -/
theorem projL_1 (i : S256x64.Idx) (q : dot_S256x2560_S2560x64_S256x64_1_0_0_1_n_n.contr.Idx) :
    (dot_S256x2560_S2560x64_S256x64_1_0_0_1_n_n.lhsIdx i q 1).val = (q ⟨0, by decide⟩).val :=
  dot_S256x2560_S2560x64_S256x64_1_0_0_1_n_n.lhsIdx_val_of_single rfl i q
/-- First product, right operand, axis 0: the contraction coordinate. -/
theorem projR_0 (i : S256x64.Idx) (q : dot_S256x2560_S2560x64_S256x64_1_0_0_1_n_n.contr.Idx) :
    (dot_S256x2560_S2560x64_S256x64_1_0_0_1_n_n.rhsIdx i q 0).val = (q ⟨0, by decide⟩).val :=
  dot_S256x2560_S2560x64_S256x64_1_0_0_1_n_n.rhsIdx_val_of_single rfl i q
/-- First product, right operand, axis 1: the result's column. -/
theorem projR_1 (i : S256x64.Idx) (q : dot_S256x2560_S2560x64_S256x64_1_0_0_1_n_n.contr.Idx) :
    (dot_S256x2560_S2560x64_S256x64_1_0_0_1_n_n.rhsIdx i q 1).val = (i 1).val := by
  unfold DotDims.rhsIdx
  rw [dif_neg (show ¬(1 : Fin S2560x64.rank) ∈ dot_S256x2560_S2560x64_S256x64_1_0_0_1_n_n.rhsBatch by decide),
    dif_pos (show (1 : Fin S2560x64.rank) ∈ dot_S256x2560_S2560x64_S256x64_1_0_0_1_n_n.rhsNonContracting by decide)]
  rfl

/-- Second product, left operand, axis 0: the result's row. -/
theorem backL_0 (i : S256x2560.Idx) (q : dot_S256x64_S2560x64_S256x2560_1_1_0_0_n_n.contr.Idx) :
    (dot_S256x64_S2560x64_S256x2560_1_1_0_0_n_n.lhsIdx i q 0).val = (i 0).val := by
  unfold DotDims.lhsIdx
  rw [dif_neg (show ¬(0 : Fin S256x64.rank) ∈ dot_S256x64_S2560x64_S256x2560_1_1_0_0_n_n.lhsBatch by decide),
    dif_pos (show (0 : Fin S256x64.rank) ∈ dot_S256x64_S2560x64_S256x2560_1_1_0_0_n_n.lhsNonContracting by decide)]
  rfl
/-- Second product, left operand, axis 1: the contraction coordinate. -/
theorem backL_1 (i : S256x2560.Idx) (q : dot_S256x64_S2560x64_S256x2560_1_1_0_0_n_n.contr.Idx) :
    (dot_S256x64_S2560x64_S256x2560_1_1_0_0_n_n.lhsIdx i q 1).val = (q ⟨0, by decide⟩).val :=
  dot_S256x64_S2560x64_S256x2560_1_1_0_0_n_n.lhsIdx_val_of_single rfl i q
/-- Second product, right operand, axis 0: the result's column (the basis tile's row). -/
theorem backR_0 (i : S256x2560.Idx) (q : dot_S256x64_S2560x64_S256x2560_1_1_0_0_n_n.contr.Idx) :
    (dot_S256x64_S2560x64_S256x2560_1_1_0_0_n_n.rhsIdx i q 0).val = (i 1).val := by
  unfold DotDims.rhsIdx
  rw [dif_neg (show ¬(0 : Fin S2560x64.rank) ∈ dot_S256x64_S2560x64_S256x2560_1_1_0_0_n_n.rhsBatch by decide),
    dif_pos (show (0 : Fin S2560x64.rank) ∈ dot_S256x64_S2560x64_S256x2560_1_1_0_0_n_n.rhsNonContracting by decide)]
  rfl
/-- Second product, right operand, axis 1: the contraction coordinate. -/
theorem backR_1 (i : S256x2560.Idx) (q : dot_S256x64_S2560x64_S256x2560_1_1_0_0_n_n.contr.Idx) :
    (dot_S256x64_S2560x64_S256x2560_1_1_0_0_n_n.rhsIdx i q 1).val = (q ⟨0, by decide⟩).val :=
  dot_S256x64_S2560x64_S256x2560_1_1_0_0_n_n.rhsIdx_val_of_single rfl i q

/-- The first pass's tile product at (b, r): the sum over the tile's 2560 vocabulary positions. -/
theorem tileProj_apply (x : FVec Ideal S256x2560 .bf16) (w : FVec Ideal S2560x64 .bf16) (b : Fin 256) (r : Fin 64) :
    matmul (F := Ideal) dot_S256x2560_S2560x64_S256x64_1_0_0_1_n_n none x w (constant (F := Ideal) S256x64 .f32 0x00000000#32) (ix2 b r)
      = ∑ k : Fin 2560, x (ix2 b k) * w (ix2 k r) := by
  show FloatOps.matmul dot_S256x2560_S2560x64_S256x64_1_0_0_1_n_n none x w (constant (F := Ideal) S256x64 .f32 0x00000000#32) (ix2 b r) = _
  rw [Ideal.matmul_constant_zero_apply,
    ← Equiv.sum_comp (ValueIdx.contrEquiv1 dot_S256x2560_S2560x64_S256x64_1_0_0_1_n_n 2560 rfl rfl).symm]
  refine Finset.sum_congr rfl fun k _ => ?_
  have hk := ValueIdx.contrEquiv1_symm_val dot_S256x2560_S2560x64_S256x64_1_0_0_1_n_n 2560 rfl rfl k
  have el : dot_S256x2560_S2560x64_S256x64_1_0_0_1_n_n.lhsIdx (ix2 b r) ((ValueIdx.contrEquiv1 dot_S256x2560_S2560x64_S256x64_1_0_0_1_n_n 2560 rfl rfl).symm k) = ix2 b k :=
    funext fun a => Fin.ext (by
      match a with
      | ⟨0, _⟩ => exact projL_0 _ _
      | ⟨1, _⟩ => exact (projL_1 _ _).trans hk)
  have er : dot_S256x2560_S2560x64_S256x64_1_0_0_1_n_n.rhsIdx (ix2 b r) ((ValueIdx.contrEquiv1 dot_S256x2560_S2560x64_S256x64_1_0_0_1_n_n 2560 rfl rfl).symm k) = ix2 k r :=
    funext fun a => Fin.ext (by
      match a with
      | ⟨0, _⟩ => exact (projR_0 _ _).trans hk
      | ⟨1, _⟩ => exact projR_1 _ _)
  rw [el, er]

/-- The later passes' tile product at (b, j): the sum over the 64 rank positions, the basis tile read transposed. -/
theorem tileBack_apply (p : FVec Ideal S256x64 .bf16) (w : FVec Ideal S2560x64 .bf16) (b : Fin 256) (j : Fin 2560) :
    matmul (F := Ideal) dot_S256x64_S2560x64_S256x2560_1_1_0_0_n_n none p w (constant (F := Ideal) S256x2560 .f32 0x00000000#32) (ix2 b j)
      = ∑ r : Fin 64, p (ix2 b r) * w (ix2 j r) := by
  show FloatOps.matmul dot_S256x64_S2560x64_S256x2560_1_1_0_0_n_n none p w (constant (F := Ideal) S256x2560 .f32 0x00000000#32) (ix2 b j) = _
  rw [Ideal.matmul_constant_zero_apply,
    ← Equiv.sum_comp (ValueIdx.contrEquiv1 dot_S256x64_S2560x64_S256x2560_1_1_0_0_n_n 64 rfl rfl).symm]
  refine Finset.sum_congr rfl fun r _ => ?_
  have hr := ValueIdx.contrEquiv1_symm_val dot_S256x64_S2560x64_S256x2560_1_1_0_0_n_n 64 rfl rfl r
  have el : dot_S256x64_S2560x64_S256x2560_1_1_0_0_n_n.lhsIdx (ix2 b j) ((ValueIdx.contrEquiv1 dot_S256x64_S2560x64_S256x2560_1_1_0_0_n_n 64 rfl rfl).symm r) = ix2 b r :=
    funext fun a => Fin.ext (by
      match a with
      | ⟨0, _⟩ => exact backL_0 _ _
      | ⟨1, _⟩ => exact (backL_1 _ _).trans hr)
  have er : dot_S256x64_S2560x64_S256x2560_1_1_0_0_n_n.rhsIdx (ix2 b j) ((ValueIdx.contrEquiv1 dot_S256x64_S2560x64_S256x2560_1_1_0_0_n_n 64 rfl rfl).symm r) = ix2 j r :=
    funext fun a => Fin.ext (by
      match a with
      | ⟨0, _⟩ => exact backR_0 _ _
      | ⟨1, _⟩ => exact (backR_1 _ _).trans hr)
  rw [el, er]

/-! ## The maximum of a tile

  A maximum reduction started from −∞ is the fold of `max` over the source entries that drop to the result index; such a
  fold is below a bound exactly when −∞ is (always) and every one of those entries is. The two recasts between the
  reductions only add a unit axis: a length-256 vector read as a 256×1 column, a length-1 vector as a 1×1 block. -/

/-- The word 0xFF800000 reads −∞. -/
theorem negInf_eq_bot : Ideal.ofBits .f32 0xFF800000#32 = (⊥ : EReal) := by
  simp [Ideal.ofBits, Ideal.ieee]

/-- A maximum reduction from −∞, at a result index, is below a bound exactly when every source entry dropping to that
    index is. -/
theorem reduceMax_le_iff {s t : Shape} {axes : List (Fin s.rank)} (src : FVec Ideal s .f32) (h : s.Reduces axes t)
    (hφ : FKind.Formats .f32) (hacc : (0xFF800000#32 : BitVec FTy.f32.bits) = FKind.maximumf.neutral .f32 hφ)
    (j : t.Idx) (z : EReal) :
    multiReduction (F := Ideal) .maximumf axes t src 0xFF800000#32 h hφ hacc j ≤ z ↔ ∀ i, h.drop i = j → src i ≤ z := by
  rw [multiReduction_maximumf_eq_fold]
  show Finset.fold max (Ideal.ofBits .f32 0xFF800000#32) src (Finset.univ.filter fun i => h.drop i = j) ≤ z ↔ _
  rw [Finset.fold_max_le, negInf_eq_bot]
  constructor
  · intro H i hi
    exact H.2 i (Finset.mem_filter.2 ⟨Finset.mem_univ _, hi⟩)
  · intro H
    exact ⟨bot_le, fun i hi => H i (Finset.mem_filter.1 hi).2⟩

/-- A length-256 vector recast as a 256×1 column reads its row. -/
theorem colCast_apply (v : S256.Idx → EReal) (j : S256x1.Idx) :
    shapeCast S256x1 v shapeCasts_S256_S256x1 j = v (ix1 (j 0)) := by
  refine shapeCast_apply v _ j (ix1 (j 0)) ?_
  rw [Shape.rowMajor_val_one, Shape.rowMajor_val_two]
  have h1 : (j 1).val = 0 := by have := (j 1).isLt; simp at this; omega
  show (j 0).val = (j 0).val * 1 + (j 1).val
  omega

/-- The one-entry shape has one index. -/
theorem idx1_eq (p q : S1.Idx) : p = q := by
  funext a
  match a with
  | ⟨0, h0⟩ =>
    have hp : (p ⟨0, h0⟩).val < 1 := (p ⟨0, h0⟩).isLt
    have hq : (q ⟨0, h0⟩).val < 1 := (q ⟨0, h0⟩).isLt
    exact Fin.ext (by omega)

/-- The row reduction drops (b, j) to b. -/
theorem rowDrop_ix2 (b : Fin 256) (j : Fin 2560) :
    reduces_S256x2560_S256.drop (ix2 b j) = (ix1 b : S256.Idx) := by
  funext a
  match a with
  | ⟨0, _⟩ => exact Fin.ext (reduces_S256x2560_S256.drop_apply_val_of_eq (ix2 b j) 0 0)

/-- A tile's largest absolute value as the bodies compute it: each row's maximum from −∞, then the maximum of the
    rows' from −∞, recast to one entry. -/
def tileMax (x : FVec Ideal S256x2560 .f32) : FVec Ideal S1x1 .f32 :=
  shapeCast S1x1 (multiReduction (F := Ideal) .maximumf [0] S1
    (shapeCast S256x1 (multiReduction (F := Ideal) .maximumf [1] S256 (absf x) 0xFF800000#32 reduces_S256x2560_S256 (.inl rfl) rfl) shapeCasts_S256_S256x1)
    0xFF800000#32 reduces_S256x1_S1 (.inl rfl) rfl) shapeCasts_S1_S1x1

/-- It is below a bound exactly when every entry's absolute value is. -/
theorem tileMax_le_iff (x : FVec Ideal S256x2560 .f32) (i : S1x1.Idx) (z : EReal) :
    tileMax x i ≤ z ↔ ∀ (b : Fin 256) (j : Fin 2560), Mint.abs' (x (ix2 b j)) ≤ z := by
  unfold tileMax
  rw [shapeCast_addUnit_apply ![1] _ shapeCasts_S1_S1x1 i]
  refine (reduceMax_le_iff _ _ _ _ _ z).trans ⟨fun H b j => ?_, fun H i' _ => ?_⟩
  · have h1 := H (ix2 b 0) (idx1_eq _ _)
    rw [colCast_apply] at h1
    exact (reduceMax_le_iff _ _ _ _ _ z).1 h1 (ix2 b j) (rowDrop_ix2 b j)
  · rw [colCast_apply]
    refine (reduceMax_le_iff _ _ _ _ _ z).2 fun i'' _ => ?_
    rw [eq_ix2 i'']
    exact H _ _

end Cert.KernelIdeal.Tile

end
-- ==== Proof.Region0.lean ====
/-
  The first pass. Over the 50 vocabulary tiles it accumulates the projection L·W in one 256×64 block that never
  moves (reset to zero at the first tile, a tile's product added at every tile) and, beside it, a running maximum
  of the logits' absolute values in one 1×1 block (reset to zero, then the larger of itself and the tile's maximum).
  Both blocks are written back once, after the last tile. So the projection array ends at the full sum over the
  128000 vocabulary positions — the 50 tiles' sums of 2560 regrouped — and the maximum array at the largest
  absolute value of all the logits: zero is a harmless start because absolute values are non-negative.
-/
import proofs.«102260_j54838142435803_1_alg».proof.Proof.Gen.KernelIdeal.Frame
import proofs.«102260_j54838142435803_1_alg».proof.Proof.MintSpec
import proofs.«102260_j54838142435803_1_alg».proof.Proof.TileOps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- Both coordinates of a block's offset are zero: the blocks are read and written whole. -/
theorem hz : (![0, 0] : Fin 2 → Nat) = fun _ => 0 := funext fun a => by fin_cases a <;> rfl

section Pieces
variable {F : FTy → Type} [FloatOps F]

/-- At a later tile the accumulator block ends holding the tile's product added to what it held before:
    the one covering store's value, its loads reading the whole buffers. -/
theorem pieceB_proj (c : Dev nD) (i : grid0.Coords) (a1 : Memref sig .tc .vmem S256x2560 .f32) (h1 : a1.IsWhole)
    (a2 : Memref sig .tc .vmem S2560x64 .f32) (h2 : a2.IsWhole) (a3 : Memref sig .tc .vmem S256x64 .f32) (h3 : a3.IsWhole)
    (a4 : Memref sig .tc .vmem S1x1 .f32) (h4 : a4.IsWhole) (hc : ¬cond0_0 i)
    (x0 : Vec F S256x2560 .f32) (x1 : Vec F S2560x64 .f32) (xo2 : Vec F S256x64 .f32) (xo3 : Vec F S1x1 .f32) :
    out0_B_2 c i a1 h1 a2 h2 a3 h3 a4 h4 hc x0 x1 xo2 xo3 = k0_pay3 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread,
    View.ld_unit_zero (S := S256x2560) hz, View.ld_unit_zero (S := S2560x64) hz, View.ld_unit_zero (S := S256x64) hz]

/-- At a later tile the maximum block ends holding the larger of what it held before and the tile's maximum. -/
theorem pieceB_max (c : Dev nD) (i : grid0.Coords) (a1 : Memref sig .tc .vmem S256x2560 .f32) (h1 : a1.IsWhole)
    (a2 : Memref sig .tc .vmem S2560x64 .f32) (h2 : a2.IsWhole) (a3 : Memref sig .tc .vmem S256x64 .f32) (h3 : a3.IsWhole)
    (a4 : Memref sig .tc .vmem S1x1 .f32) (h4 : a4.IsWhole) (hc : ¬cond0_0 i)
    (x0 : Vec F S256x2560 .f32) (x1 : Vec F S2560x64 .f32) (xo2 : Vec F S256x64 .f32) (xo3 : Vec F S1x1 .f32) :
    out0_B_3 c i a1 h1 a2 h2 a3 h3 a4 h4 hc x0 x1 xo2 xo3 = k0_pay4 x0 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h4.read_unread,
    View.ld_unit_zero (S := S256x2560) hz, View.ld_unit_zero (S := S1x1) hz]

/-- At the first tile the accumulator block is reset to the zero block, read back, and ends holding the tile's
    product added to zero. -/
theorem pieceA_proj (c : Dev nD) (i : grid0.Coords) (a1 : Memref sig .tc .vmem S256x2560 .f32) (h1 : a1.IsWhole)
    (a2 : Memref sig .tc .vmem S2560x64 .f32) (h2 : a2.IsWhole) (a3 : Memref sig .tc .vmem S256x64 .f32) (h3 : a3.IsWhole)
    (a4 : Memref sig .tc .vmem S1x1 .f32) (h4 : a4.IsWhole) (hc : cond0_0 i)
    (x0 : Vec F S256x2560 .f32) (x1 : Vec F S2560x64 .f32) :
    out0_A_2 c i a1 h1 a2 h2 a3 h3 a4 h4 hc x0 x1 = k0_pay3 x0 x1 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S256x64) hz, View.readCov_unit_zero (S := S256x64) _ hz]
  simp only [View.readAt_eq_ld, h1.read_unread, h2.read_unread,
    View.ld_unit_zero (S := S256x2560) hz, View.ld_unit_zero (S := S2560x64) hz, View.ld_unit_zero (S := S256x64) hz]

/-- At the first tile the maximum block is reset to zero, read back, and ends holding the larger of zero and the
    tile's maximum. -/
theorem pieceA_max (c : Dev nD) (i : grid0.Coords) (a1 : Memref sig .tc .vmem S256x2560 .f32) (h1 : a1.IsWhole)
    (a2 : Memref sig .tc .vmem S2560x64 .f32) (h2 : a2.IsWhole) (a3 : Memref sig .tc .vmem S256x64 .f32) (h3 : a3.IsWhole)
    (a4 : Memref sig .tc .vmem S1x1 .f32) (h4 : a4.IsWhole) (hc : cond0_0 i)
    (x0 : Vec F S256x2560 .f32) (x1 : Vec F S2560x64 .f32) :
    out0_A_3 c i a1 h1 a2 h2 a3 h3 a4 h4 hc x0 x1 = k0_pay4 x0 k0_pay2 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread,
    View.ld_unit_zero (S := S256x2560) hz, View.ld_unit_zero (S := S1x1) hz]

end Pieces

section Payloads

/-- The reset accumulator is zero everywhere. -/
theorem pay1_apply (j : S256x64.Idx) : k0_pay1 (F := Ideal) j = 0 := by
  unfold k0_pay1
  exact Ideal.ofBits_zero_f32

/-- The reset maximum is zero. -/
theorem pay2_apply (i : S1x1.Idx) : k0_pay2 (F := Ideal) i = 0 := by
  unfold k0_pay2
  exact Ideal.ofBits_zero_f32

/-- The accumulation at (b, r): what the block held there plus the tile's sum over its 2560 positions. -/
theorem pay3_apply (x0 : Vec Ideal S256x2560 .f32) (x1 : Vec Ideal S2560x64 .f32) (acc : Vec Ideal S256x64 .f32)
    (b : Fin 256) (r : Fin 64) :
    k0_pay3 (F := Ideal) x0 x1 acc (ix2 b r) = acc (ix2 b r) + ∑ k : Fin 2560, x0 (ix2 b k) * x1 (ix2 k r) := by
  unfold k0_pay3
  refine (addf_apply _ _ _).trans ?_
  refine congrArg₂ (· + ·) (congrFun (shapeCast_self acc shapeCasts_S256x64_S256x64) (ix2 b r)) ?_
  exact Tile.tileProj_apply (truncf .bf16 x0 bitsLt_bf16_f32) (truncf .bf16 x1 bitsLt_bf16_f32) b r

/-- The running maximum: the larger of what the block held and the tile's largest absolute value. -/
theorem pay4_apply (x0 : Vec Ideal S256x2560 .f32) (acc : Vec Ideal S1x1 .f32) (i : S1x1.Idx) :
    k0_pay4 (F := Ideal) x0 acc i = max (acc i) (Tile.tileMax x0 i) := by
  unfold k0_pay4 Tile.tileMax
  refine (maximumf_apply _ _ _).trans ?_
  exact congrArg₂ max (congrFun (shapeCast_self acc shapeCasts_S1x1_S1x1) i) rfl

end Payloads

/-! The vocabulary axis as 50 tiles of 2560 positions. -/

/-- Position j of tile t among the 128000 vocabulary positions. -/
def col (t : Fin 50) (j : Fin 2560) : Fin 128000 :=
  ⟨2560 * t.val + j.val, by have := t.isLt; have := j.isLt; omega⟩

/-- Every vocabulary position lies in exactly one tile: its quotient and remainder by 2560. -/
theorem col_surj (k : Fin 128000) : ∃ (t : Fin 50) (j : Fin 2560), col t j = k :=
  ⟨⟨k.val / 2560, by have := k.isLt; omega⟩, ⟨k.val % 2560, by omega⟩, Fin.ext (by show 2560 * (k.val / 2560) + k.val % 2560 = k.val; omega)⟩

/-- A sum over the vocabulary is the sum over the tiles of the sums over each tile's positions. -/
theorem sum_col (f : Fin 128000 → EReal) : ∑ k, f k = ∑ t : Fin 50, ∑ j : Fin 2560, f (col t j) := by
  rw [← Fintype.sum_prod_type' (f := fun t j => f (col t j))]
  refine (Fintype.sum_equiv (finProdFinEquiv (m := 50) (n := 2560)) (fun p => f (col p.1 p.2)) f
    (fun p => congrArg f (Fin.ext ?_))).symm
  show 2560 * p.1.val + p.2.val = p.2.val + 2560 * p.1.val
  omega

/- The TensorCore's buffer contents when the region is entered. -/
variable (V : (c : Dev nD) → (b : Ref sig .tc) → Buf (Elt Ideal) ((c : Thread nD τ).loc b))

/-! The tiles the region stages, read at their coordinates in the two arrays. -/

/-- The logits tile and the basis tile staged at point t, and the two arrays they are tiles of. -/
abbrev xblk (c : Dev nD) (t : Fin cfg0.N) : Vec Ideal S256x2560 .f32 := iblk0 V c 0 t
abbrev wblk (c : Dev nD) (t : Fin cfg0.N) : Vec Ideal S2560x64 .f32 := iblk0 V c 1 t
abbrev logits (c : Dev nD) : Mint.SL.Idx → EReal := V c main_arg1
abbrev basis (c : Dev nD) : Mint.SW.Idx → EReal := V c main_arg2

/-- A grid point as a tile number: the grid has 50 points. -/
def tile (t : Fin cfg0.N) : Fin 50 := ⟨t.val, lt_of_lt_of_eq t.isLt (show cfg0.N = 50 from N_0)⟩

/-- The logits window sits at block (0, t), the basis window at block (t, 0): decided over the grid. -/
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = t.val ∧ win0_1.index t 1 = 0 :=
  (by decide +kernel : ∀ t : Fin grid0.N, win0_1.index t 0 = t.val ∧ win0_1.index t 1 = 0)

/-- Entry (b, k) of the logits tile at point t is the logits at row b, position k of tile t. -/
theorem xblk_apply (c : Dev nD) (t : Fin cfg0.N) (b : Fin 256) (k : Fin 2560) :
    xblk V c t (ix2 b k) = logits V c (ix2 b (col (tile t) k)) := by
  unfold xblk iblk0
  rw [View.read_apply]
  show V c main_arg1 (((cfg0.win 0).blk t).view.emb (ix2 b k)) = V c main_arg1 (ix2 b (col (tile t) k))
  refine congrArg (V c main_arg1) (funext fun a => Fin.ext ?_)
  match a with
  | ⟨0, _⟩ => show win0_0.index t 0 * 256 + 1 * b.val = b.val; rw [(idx0 t).1]; omega
  | ⟨1, _⟩ => show win0_0.index t 1 * 2560 + 1 * k.val = 2560 * t.val + k.val; rw [(idx0 t).2]; omega

/-- Entry (k, r) of the basis tile at point t is the basis at position k of tile t, rank position r. -/
theorem wblk_apply (c : Dev nD) (t : Fin cfg0.N) (k : Fin 2560) (r : Fin 64) :
    wblk V c t (ix2 k r) = basis V c (ix2 (col (tile t) k) r) := by
  unfold wblk iblk0
  rw [View.read_apply]
  show V c main_arg2 (((cfg0.win 1).blk t).view.emb (ix2 k r)) = V c main_arg2 (ix2 (col (tile t) k) r)
  refine congrArg (V c main_arg2) (funext fun a => Fin.ext ?_)
  match a with
  | ⟨0, _⟩ => show win0_1.index t 0 * 2560 + 1 * k.val = 2560 * t.val + k.val; rw [(idx1 t).1]; omega
  | ⟨1, _⟩ => show win0_1.index t 1 * 64 + 1 * r.val = r.val; rw [(idx1 t).2]; omega

/-! The tiles counted up to a point. -/

/-- The tiles up to number n + 1 are the tiles up to n and tile n + 1. -/
theorem filter_succ (n : ℕ) (h : n + 1 < 50) :
    (Finset.univ.filter fun t : Fin 50 => t.val ≤ n + 1)
      = insert (⟨n + 1, h⟩ : Fin 50) (Finset.univ.filter fun t : Fin 50 => t.val ≤ n) := by
  ext t
  simp only [Finset.mem_filter, Finset.mem_univ, true_and, Finset.mem_insert, Fin.ext_iff]
  omega

/-- A property of the tiles up to number n + 1 is one of the tiles up to n together with tile n + 1. -/
theorem forall_le_succ (P : Fin 50 → Prop) (n : ℕ) (h : n + 1 < 50) :
    (∀ t : Fin 50, t.val ≤ n + 1 → P t) ↔ (∀ t : Fin 50, t.val ≤ n → P t) ∧ P ⟨n + 1, h⟩ := by
  constructor
  · intro H
    exact ⟨fun t ht => H t (Nat.le_succ_of_le ht), H ⟨n + 1, h⟩ (Nat.le_refl _)⟩
  · rintro ⟨H1, H2⟩ t ht
    rcases Nat.lt_or_ge t.val (n + 1) with h' | h'
    · exact H1 t (Nat.lt_succ_iff.mp h')
    · obtain rfl : t = ⟨n + 1, h⟩ := Fin.ext (Nat.le_antisymm ht h')
      exact H2

/-! The projection, tile by tile. -/

/-- Tile t's share of the projection at (b, r): the sum over its 2560 positions of logits · basis. -/
def tileSum (c : Dev nD) (b : Fin 256) (r : Fin 64) (t : Fin 50) : EReal :=
  ∑ j : Fin 2560, logits V c (ix2 b (col t j)) * basis V c (ix2 (col t j) r)

/-- The product of the two tiles staged at point t, at (b, r), is that tile's share. -/
theorem tile_sum_eq (c : Dev nD) (t : Fin cfg0.N) (b : Fin 256) (r : Fin 64) :
    ∑ k : Fin 2560, xblk V c t (ix2 b k) * wblk V c t (ix2 k r) = tileSum V c b r (tile t) :=
  Finset.sum_congr rfl fun k _ => congrArg₂ (· * ·) (xblk_apply V c t b k) (wblk_apply V c t k r)

/-- After point n the accumulator block holds, at (b, r), the shares of the tiles up to n: zero plus the first
    tile's share at the first point, one more share added at each later point. -/
theorem acc_eq (c : Dev nD) (b : Fin 256) (r : Fin 64) : ∀ (n : ℕ) (hn : n < cfg0.N),
    (outsAt0 V c n hn).1 (ix2 b r) = ∑ t ∈ Finset.univ.filter (fun t : Fin 50 => t.val ≤ n), tileSum V c b r t
  | 0, hn => by
    rw [outsAt0_A V c ⟨0, hn⟩ rfl]; dsimp only
    refine (congrFun (pieceA_proj (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk0 V c 0 ⟨0, hn⟩) (iblk0 V c 1 ⟨0, hn⟩)) (ix2 b r)).trans ?_
    refine (pay3_apply (xblk V c ⟨0, hn⟩) (wblk V c ⟨0, hn⟩) (k0_pay1 (F := Ideal)) b r).trans ?_
    rw [pay1_apply, zero_add, tile_sum_eq V c ⟨0, hn⟩ b r]
    have e : (Finset.univ.filter fun t : Fin 50 => t.val ≤ 0) = {tile ⟨0, hn⟩} := by
      ext t
      simp only [Finset.mem_filter, Finset.mem_univ, true_and, Finset.mem_singleton, Fin.ext_iff]
      show t.val ≤ 0 ↔ t.val = 0
      omega
    rw [e, Finset.sum_singleton]
  | n + 1, hn => by
    have hN : cfg0.N = 50 := N_0
    have h50 : n + 1 < 50 := lt_of_lt_of_eq hn hN
    have hB : ¬(⟨n + 1, hn⟩ : Fin cfg0.N).val % 50 = 0 := by dsimp only; omega
    rw [outsAt0_B V c ⟨n + 1, hn⟩ hB]; dsimp only
    refine (congrFun (pieceB_proj (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩) (outsAt0 V c n (Nat.lt_of_succ_lt hn)).1 (outsAt0 V c n (Nat.lt_of_succ_lt hn)).2) (ix2 b r)).trans ?_
    refine (pay3_apply (xblk V c ⟨n + 1, hn⟩) (wblk V c ⟨n + 1, hn⟩) (outsAt0 V c n (Nat.lt_of_succ_lt hn)).1 b r).trans ?_
    rw [acc_eq c b r n (Nat.lt_of_succ_lt hn), tile_sum_eq V c ⟨n + 1, hn⟩ b r, filter_succ n h50,
      Finset.sum_insert (by simp only [Finset.mem_filter, Finset.mem_univ, true_and]; omega), add_comm]
    rfl

/-! The running maximum, tile by tile. -/

/-- The maximum of the tile staged at point t is below a bound exactly when every logit of that tile is, in
    absolute value. -/
theorem tileMax_xblk_le_iff (c : Dev nD) (t : Fin cfg0.N) (i : S1x1.Idx) (z : EReal) :
    Tile.tileMax (xblk V c t) i ≤ z ↔ ∀ (b : Fin 256) (j : Fin 2560), Mint.abs' (logits V c (ix2 b (col (tile t) j))) ≤ z := by
  rw [Tile.tileMax_le_iff]
  exact forall_congr' fun b => forall_congr' fun j => by rw [xblk_apply V c t b j]

/-- After point n the maximum block is below a bound z exactly when z is non-negative and every logit of the
    tiles up to n is below z in absolute value: zero at the reset, then the larger of itself and a tile's maximum. -/
theorem max_le_iff_at (c : Dev nD) (i : S1x1.Idx) : ∀ (n : ℕ) (hn : n < cfg0.N) (z : EReal),
    (outsAt0 V c n hn).2 i ≤ z ↔
      0 ≤ z ∧ ∀ t : Fin 50, t.val ≤ n → ∀ (b : Fin 256) (j : Fin 2560), Mint.abs' (logits V c (ix2 b (col t j))) ≤ z
  | 0, hn, z => by
    rw [outsAt0_A V c ⟨0, hn⟩ rfl]; dsimp only
    have e := (congrFun (pieceA_max (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk0 V c 0 ⟨0, hn⟩) (iblk0 V c 1 ⟨0, hn⟩)) i).trans (pay4_apply (xblk V c ⟨0, hn⟩) (k0_pay2 (F := Ideal)) i)
    refine (iff_of_eq (congrArg (· ≤ z) e)).trans ?_
    rw [pay2_apply, max_le_iff, tileMax_xblk_le_iff V c ⟨0, hn⟩ i z]
    refine and_congr_right fun _ => ⟨fun h t ht => ?_, fun h => h (tile ⟨0, hn⟩) (Nat.le_refl _)⟩
    obtain rfl : t = tile ⟨0, hn⟩ := Fin.ext (Nat.le_zero.mp ht)
    exact h
  | n + 1, hn, z => by
    have hN : cfg0.N = 50 := N_0
    have h50 : n + 1 < 50 := lt_of_lt_of_eq hn hN
    have hB : ¬(⟨n + 1, hn⟩ : Fin cfg0.N).val % 50 = 0 := by dsimp only; omega
    rw [outsAt0_B V c ⟨n + 1, hn⟩ hB]; dsimp only
    have e := (congrFun (pieceB_max (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩) (outsAt0 V c n (Nat.lt_of_succ_lt hn)).1 (outsAt0 V c n (Nat.lt_of_succ_lt hn)).2) i).trans (pay4_apply (xblk V c ⟨n + 1, hn⟩) (outsAt0 V c n (Nat.lt_of_succ_lt hn)).2 i)
    refine (iff_of_eq (congrArg (· ≤ z) e)).trans ?_
    rw [max_le_iff, max_le_iff_at c i n (Nat.lt_of_succ_lt hn) z, tileMax_xblk_le_iff V c ⟨n + 1, hn⟩ i z,
      forall_le_succ (fun t => ∀ (b : Fin 256) (j : Fin 2560), Mint.abs' (logits V c (ix2 b (col t j))) ≤ z) n h50, and_assoc]
    rfl

/-! The last point, the one write-back, and the arrays after the region. -/

/-- The last of the 50 points. -/
abbrev tLast : Fin cfg0.N := ⟨49, lt_of_lt_of_eq (by decide : 49 < 50) (show cfg0.N = 50 from N_0).symm⟩

theorem lt_last : 49 < cfg0.N := tLast.isLt

/-- After the last point the accumulator block holds the projection: all 50 tiles' shares, regrouped into the one
    sum over the 128000 vocabulary positions. -/
theorem acc_last (c : Dev nD) :
    (outsAt0 V c 49 lt_last).1 = Mint.proj (V c main_arg1) (V c main_arg2) := by
  funext j
  obtain ⟨b, r, rfl⟩ : ∃ (b : Fin 256) (r : Fin 64), j = ix2 b r := ⟨j 0, j 1, eq_ix2 j⟩
  rw [acc_eq V c b r 49 lt_last]
  have e : (Finset.univ.filter fun t : Fin 50 => t.val ≤ 49) = Finset.univ := by
    ext t
    simp only [Finset.mem_filter, Finset.mem_univ, true_and, iff_true]
    have := t.isLt
    omega
  rw [e]
  exact (sum_col fun k => logits V c (ix2 b k) * basis V c (ix2 k r)).symm

/-- After the last point the maximum block holds the largest absolute value of all the logits: it has the
    maximum's universal property, every vocabulary position lying in some tile and every absolute value being
    non-negative. -/
theorem max_last (c : Dev nD) (i : S1x1.Idx) :
    (outsAt0 V c 49 lt_last).2 i = Mint.absMax (V c main_arg1) :=
  Mint.eq_absMax_of_le_iff _ _ fun z => by
    rw [max_le_iff_at V c i 49 lt_last z]
    constructor
    · rintro ⟨_, H⟩ idx
      obtain ⟨b, k, rfl⟩ : ∃ (b : Fin 256) (k : Fin 128000), idx = ix2 b k := ⟨idx 0, idx 1, eq_ix2 idx⟩
      obtain ⟨t, j, rfl⟩ := col_surj k
      exact H t (by have := t.isLt; omega) b j
    · intro H
      exact ⟨(Mint.abs'_nonneg _).trans (H (ix2 (0 : Fin 256) (0 : Fin 128000))), fun t _ b j => H (ix2 b (col t j))⟩

/-- The two output windows sit at block (0, 0) at every point, and their blocks have the arrays' full extents:
    decided over the grid. -/
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem ext2 : ∀ t : Fin cfg0.N, win0_2.xsize (grid0.coords t) 0 = 256 ∧ win0_2.xsize (grid0.coords t) 1 = 64 :=
  (by decide +kernel : ∀ t : Fin grid0.N, win0_2.xsize (grid0.coords t) 0 = 256 ∧ win0_2.xsize (grid0.coords t) 1 = 64)
theorem ext3 : ∀ t : Fin cfg0.N, win0_3.xsize (grid0.coords t) 0 = 1 ∧ win0_3.xsize (grid0.coords t) 1 = 1 :=
  (by decide +kernel : ∀ t : Fin grid0.N, win0_3.xsize (grid0.coords t) 0 = 1 ∧ win0_3.xsize (grid0.coords t) 1 = 1)

/-- The one write-back of the projection window, after the last point, writes the projection: its block, at zero
    offsets and of the array's extents, read through is the array itself. -/
theorem flushed_proj (c : Dev nD) (t : Fin cfg0.N) (hf : (cfg0.win 2).flush t = true) :
    (dat0 (F := Ideal) V c).flushed 2 t
      = ((cfg0.win 2).blk t).view.read (Elt Ideal) (Mint.proj (V c main_arg1) (V c main_arg2)) := by
  have hN : cfg0.N = 50 := N_0
  have h49 : t.val = 49 := by have := (flush0_2 t).mp hf; have := t.isLt; omega
  obtain rfl : t = tLast := Fin.ext h49
  show (cfg0.win 2).cut (grid0.coords tLast) ((dat0 (F := Ideal) V c).after 2 tLast) = _
  rw [after0_2]
  show (cfg0.win 2).cut (grid0.coords tLast) (outsAt0 V c 49 lt_last).1 = _
  rw [acc_last]
  have hz' : (fun a => win0_2.index tLast a * main_v0_0.ty.shape.size a) = fun _ => 0 := funext fun a => by
    match a with
    | ⟨0, _⟩ => show win0_2.index tLast 0 * 256 = 0; rw [(idx2 tLast).1]
    | ⟨1, _⟩ => show win0_2.index tLast 1 * 64 = 0; rw [(idx2 tLast).2]
  exact (Memref.read_access_unit_zero (Elt Ideal) main_v0_0 hz' (fun a => by rw [congrFun hz' a]; simp)
    (Mint.proj (V c main_arg1) (V c main_arg2))).symm

/-- The one write-back of the maximum window writes the largest absolute value of the logits. -/
theorem flushed_max (c : Dev nD) (t : Fin cfg0.N) (hf : (cfg0.win 3).flush t = true) :
    (dat0 (F := Ideal) V c).flushed 3 t
      = ((cfg0.win 3).blk t).view.read (Elt Ideal) (fun _ : S1x1.Idx => Mint.absMax (V c main_arg1)) := by
  have hN : cfg0.N = 50 := N_0
  have h49 : t.val = 49 := by have := (flush0_3 t).mp hf; have := t.isLt; omega
  obtain rfl : t = tLast := Fin.ext h49
  show (cfg0.win 3).cut (grid0.coords tLast) ((dat0 (F := Ideal) V c).after 3 tLast) = _
  rw [after0_3]
  show (cfg0.win 3).cut (grid0.coords tLast) (outsAt0 V c 49 lt_last).2 = _
  rw [show (outsAt0 V c 49 lt_last).2 = fun _ : S1x1.Idx => Mint.absMax (V c main_arg1) from funext fun i => max_last V c i]
  have hz' : (fun a => win0_3.index tLast a * main_v0_1.ty.shape.size a) = fun _ => 0 := funext fun a => by
    match a with
    | ⟨0, _⟩ => show win0_3.index tLast 0 * 1 = 0; rw [(idx3 tLast).1]
    | ⟨1, _⟩ => show win0_3.index tLast 1 * 1 = 0; rw [(idx3 tLast).2]
  exact (Memref.read_access_unit_zero (Elt Ideal) main_v0_1 hz' (fun a => by rw [congrFun hz' a]; simp)
    (fun _ : S1x1.Idx => Mint.absMax (V c main_arg1))).symm

/-- The projection array after the region: L·W of the logits and the basis as the region finds them. -/
theorem final_proj (c : Dev nD) :
    (dat0 (F := Ideal) V c).arrAt 2 cfg0.N = Mint.proj (V c main_arg1) (V c main_arg2) := by
  refine (dat0 (F := Ideal) V c).arrAt_eq_of_cover 2 (Mint.proj (V c main_arg1) (V c main_arg2)) (flushed_proj V c) fun i =>
    ⟨tLast, (flush0_2 tLast).mpr rfl, ?_⟩
  show i ∈ ((View.whole main_v0_0).slice (win0_2.rect tLast)).set
  rw [View.set_slice_whole, Rect.mem_set_unit]
  intro a
  have h0 : (i 0 : Nat) < 256 := (i 0).isLt
  have h1 : (i 1 : Nat) < 64 := (i 1).isLt
  match a with
  | ⟨0, _⟩ =>
    show win0_2.index tLast 0 * 256 ≤ (i 0 : Nat) ∧ (i 0 : Nat) < win0_2.index tLast 0 * 256 + win0_2.xsize (grid0.coords tLast) 0
    rw [(idx2 tLast).1, (ext2 tLast).1]; omega
  | ⟨1, _⟩ =>
    show win0_2.index tLast 1 * 64 ≤ (i 1 : Nat) ∧ (i 1 : Nat) < win0_2.index tLast 1 * 64 + win0_2.xsize (grid0.coords tLast) 1
    rw [(idx2 tLast).2, (ext2 tLast).2]; omega

/-- The maximum array after the region: the largest absolute value of the logits as the region finds them. -/
theorem final_max (c : Dev nD) (i : S1x1.Idx) :
    (dat0 (F := Ideal) V c).arrAt 3 cfg0.N i = Mint.absMax (V c main_arg1) := by
  refine congrFun ((dat0 (F := Ideal) V c).arrAt_eq_of_cover 3 (fun _ : S1x1.Idx => Mint.absMax (V c main_arg1)) (flushed_max V c) fun y =>
    ⟨tLast, (flush0_3 tLast).mpr rfl, ?_⟩) i
  show y ∈ ((View.whole main_v0_1).slice (win0_3.rect tLast)).set
  rw [View.set_slice_whole, Rect.mem_set_unit]
  intro a
  have h0 : (y 0 : Nat) < 1 := (y 0).isLt
  have h1 : (y 1 : Nat) < 1 := (y 1).isLt
  match a with
  | ⟨0, _⟩ =>
    show win0_3.index tLast 0 * 1 ≤ (y 0 : Nat) ∧ (y 0 : Nat) < win0_3.index tLast 0 * 1 + win0_3.xsize (grid0.coords tLast) 0
    rw [(idx3 tLast).1, (ext3 tLast).1]; omega
  | ⟨1, _⟩ =>
    show win0_3.index tLast 1 * 1 ≤ (y 1 : Nat) ∧ (y 1 : Nat) < win0_3.index tLast 1 * 1 + win0_3.xsize (grid0.coords tLast) 1
    rw [(idx3 tLast).2, (ext3 tLast).2]; omega

end Cert.KernelIdeal.Region0

end
-- ==== Proof.Region1.lean ====
/-
  The second pass. Tile by tile it recomputes the residual P·Wᵀ − L from the projection array, the basis and the
  logits as the region finds them, and keeps a running maximum of its absolute values in one 1×1 block (reset to
  zero at the first tile, written back once after the last). The maximum array ends at the largest absolute value of
  the whole residual.
-/
import proofs.«102260_j54838142435803_1_alg».proof.Proof.Gen.KernelIdeal.Frame
import proofs.«102260_j54838142435803_1_alg».proof.Proof.MintSpec
import proofs.«102260_j54838142435803_1_alg».proof.Proof.TileOps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The zero offsets of a whole buffer of rank two, however spelt. -/
theorem hz : (![0, 0] : Fin 2 → Nat) = fun _ => 0 := funext fun a => by fin_cases a <;> rfl

section Pieces
variable {F : FTy → Type} [FloatOps F]

/-- A later tile: over the running maximum `xo` the body's one store covers the 1×1 block, so the block ends at
    that store's value; each load reads a whole buffer. -/
theorem out_B (c : Dev nD) (i : grid1.Coords) (a1 : Memref sig .tc .vmem S256x64 .f32) (h1 : a1.IsWhole)
    (a2 : Memref sig .tc .vmem S2560x64 .f32) (h2 : a2.IsWhole) (a3 : Memref sig .tc .vmem S256x2560 .f32) (h3 : a3.IsWhole)
    (a4 : Memref sig .tc .vmem S1x1 .f32) (h4 : a4.IsWhole) (hc : ¬cond1_0 i)
    (x0 : Vec F S256x64 .f32) (x1 : Vec F S2560x64 .f32) (x2 : Vec F S256x2560 .f32) (xo : Vec F S1x1 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero (S := S1x1) hz]
  simp only [View.readAt_eq_ld, h1.read_unread, h2.read_unread, h3.read_unread, h4.read_unread,
    View.ld_unit_zero (S := S256x64) hz, View.ld_unit_zero (S := S2560x64) hz, View.ld_unit_zero (S := S256x2560) hz,
    View.ld_unit_zero (S := S1x1) hz]

/-- The first tile: the body stores the zero entry, reads it back, and its second store covers the block again with
    its value over that zero. -/
theorem out_A (c : Dev nD) (i : grid1.Coords) (a1 : Memref sig .tc .vmem S256x64 .f32) (h1 : a1.IsWhole)
    (a2 : Memref sig .tc .vmem S2560x64 .f32) (h2 : a2.IsWhole) (a3 : Memref sig .tc .vmem S256x2560 .f32) (h3 : a3.IsWhole)
    (a4 : Memref sig .tc .vmem S1x1 .f32) (h4 : a4.IsWhole) (hc : cond1_0 i)
    (x0 : Vec F S256x64 .f32) (x1 : Vec F S2560x64 .f32) (x2 : Vec F S256x2560 .f32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S256x64) hz, View.ld_unit_zero (S := S2560x64) hz, View.ld_unit_zero (S := S256x2560) hz]

end Pieces

/-! ## The stores' values over the extended reals -/

section Payload

/-- The reset's entry is zero. -/
theorem pay1_apply (i : S1x1.Idx) : k1_pay1 (F := Ideal) i = 0 := by
  unfold k1_pay1
  exact Ideal.ofBits_zero_f32

/-- One tile of the residual as the body computes it: the projection block times the transposed basis tile, minus
    the logits tile. -/
abbrev tileResid (p : Vec Ideal S256x64 .f32) (w : Vec Ideal S2560x64 .f32) (l : Vec Ideal S256x2560 .f32) :
    FVec Ideal S256x2560 .f32 :=
  subf (matmul (F := Ideal) dot_S256x64_S2560x64_S256x2560_1_1_0_0_n_n none (truncf .bf16 p bitsLt_bf16_f32)
    (truncf .bf16 w bitsLt_bf16_f32) (constant (F := Ideal) S256x2560 .f32 0x00000000#32)) l

/-- The update's entry: the larger of the running maximum and the tile's largest absolute value. -/
theorem pay2_apply (p : Vec Ideal S256x64 .f32) (w : Vec Ideal S2560x64 .f32) (l : Vec Ideal S256x2560 .f32)
    (acc : Vec Ideal S1x1 .f32) (i : S1x1.Idx) :
    k1_pay2 (F := Ideal) p w l acc i = max (acc i) (Tile.tileMax (tileResid p w l) i) := by
  unfold k1_pay2
  simp only [shapeCast_self]
  rfl

/-- An entry of the residual tile: the sum over the rank positions, minus the logits entry. -/
theorem tileResid_apply (p : Vec Ideal S256x64 .f32) (w : Vec Ideal S2560x64 .f32) (l : Vec Ideal S256x2560 .f32)
    (b : Fin 256) (j : Fin 2560) :
    tileResid p w l (ix2 b j) = (∑ r : Fin 64, p (ix2 b r) * w (ix2 j r)) - l (ix2 b j) := by
  show matmul (F := Ideal) dot_S256x64_S2560x64_S256x2560_1_1_0_0_n_n none (truncf .bf16 p bitsLt_bf16_f32)
    (truncf .bf16 w bitsLt_bf16_f32) (constant (F := Ideal) S256x2560 .f32 0x00000000#32) (ix2 b j) - l (ix2 b j) = _
  rw [Tile.tileBack_apply]
  rfl

/-- The update's entry is below a bound exactly when the running maximum is and every entry of the residual tile is
    in absolute value: the universal property of the maximum, carried through one step. -/
theorem pay2_le_iff (p : Vec Ideal S256x64 .f32) (w : Vec Ideal S2560x64 .f32) (l : Vec Ideal S256x2560 .f32)
    (acc : Vec Ideal S1x1 .f32) (i : S1x1.Idx) (z : EReal) :
    k1_pay2 (F := Ideal) p w l acc i ≤ z
      ↔ acc i ≤ z ∧ ∀ (b : Fin 256) (j : Fin 2560),
          Mint.abs' ((∑ r : Fin 64, p (ix2 b r) * w (ix2 j r)) - l (ix2 b j)) ≤ z := by
  rw [pay2_apply, max_le_iff, Tile.tileMax_le_iff]
  refine and_congr_right fun _ => forall_congr' fun b => forall_congr' fun j => ?_
  rw [tileResid_apply]

end Payload

/- The TensorCore's buffer contents when the region is entered. -/
variable (V : (c : Dev nD) → (b : Ref sig .tc) → Buf (Elt Ideal) ((c : Thread nD τ).loc b))

/-! ## The blocks the body reads, at their coordinates in the arrays -/

/-- The three arrays the pass reads as the region finds them: the projection, the basis, the logits. -/
abbrev parr (c : Dev nD) : Mint.SP.Idx → EReal := V c main_v0_0
abbrev warr (c : Dev nD) : Mint.SW.Idx → EReal := V c main_arg2
abbrev larr (c : Dev nD) : Mint.SL.Idx → EReal := V c main_arg1

/-- Their blocks at tile `t`: the whole projection, 2560 rows of the basis, 2560 columns of the logits. -/
abbrev pblk (c : Dev nD) (t : Fin cfg1.N) : Vec Ideal S256x64 .f32 := iblk1 V c 0 t
abbrev wblk (c : Dev nD) (t : Fin cfg1.N) : Vec Ideal S2560x64 .f32 := iblk1 V c 1 t
abbrev lblk (c : Dev nD) (t : Fin cfg1.N) : Vec Ideal S256x2560 .f32 := iblk1 V c 2 t

/-- The block index of each window at tile `t`, decided once over the grid: the projection's and the maximum's stay
    at (0, 0), the basis' is (t, 0), the logits' (0, t). -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0 :=
  (by decide +kernel : ∀ t : Fin grid1.N, _)

/-- The vocabulary position of column `j` of tile `t`. -/
def col (t : Fin cfg1.N) (j : Fin 2560) : Fin 128000 :=
  ⟨2560 * t.val + j.val, by
    have ht : t.val < 50 := lt_of_lt_of_eq t.isLt (show cfg1.N = 50 from N_1)
    have hj : j.val < 2560 := j.isLt
    omega⟩

/-- The projection's block is the whole projection: entry (b, r) is the array's. -/
theorem pblk_apply (c : Dev nD) (t : Fin cfg1.N) (b : Fin 256) (r : Fin 64) :
    pblk V c t (ix2 b r) = parr V c (ix2 b r) := by
  obtain ⟨e0, e1, -⟩ := idx_facts t
  show V c main_v0_0 (((cfg1.win 0).blk t).view.emb (ix2 b r)) = V c main_v0_0 (ix2 b r)
  refine congrArg (V c main_v0_0) ?_
  funext a; apply Fin.ext
  match a with
  | ⟨0, _⟩ => show win1_0.index t (0 : Fin 2) * 256 + 1 * b.val = b.val; omega
  | ⟨1, _⟩ => show win1_0.index t (1 : Fin 2) * 64 + 1 * r.val = r.val; omega

/-- Row `j` of the basis tile `t` is the basis' row at the tile's vocabulary position. -/
theorem wblk_apply (c : Dev nD) (t : Fin cfg1.N) (j : Fin 2560) (r : Fin 64) :
    wblk V c t (ix2 j r) = warr V c (ix2 (col t j) r) := by
  obtain ⟨-, -, e0, e1, -⟩ := idx_facts t
  show V c main_arg2 (((cfg1.win 1).blk t).view.emb (ix2 j r)) = V c main_arg2 (ix2 (col t j) r)
  refine congrArg (V c main_arg2) ?_
  funext a; apply Fin.ext
  match a with
  | ⟨0, _⟩ => show win1_1.index t (0 : Fin 2) * 2560 + 1 * j.val = 2560 * t.val + j.val; omega
  | ⟨1, _⟩ => show win1_1.index t (1 : Fin 2) * 64 + 1 * r.val = r.val; omega

/-- Column `j` of the logits tile `t` is the logits' column at the tile's vocabulary position. -/
theorem lblk_apply (c : Dev nD) (t : Fin cfg1.N) (b : Fin 256) (j : Fin 2560) :
    lblk V c t (ix2 b j) = larr V c (ix2 b (col t j)) := by
  obtain ⟨-, -, -, -, e0, e1, -⟩ := idx_facts t
  show V c main_arg1 (((cfg1.win 2).blk t).view.emb (ix2 b j)) = V c main_arg1 (ix2 b (col t j))
  refine congrArg (V c main_arg1) ?_
  funext a; apply Fin.ext
  match a with
  | ⟨0, _⟩ => show win1_2.index t (0 : Fin 2) * 256 + 1 * b.val = b.val; omega
  | ⟨1, _⟩ => show win1_2.index t (1 : Fin 2) * 2560 + 1 * j.val = 2560 * t.val + j.val; omega

/-! ## The running maximum, tile after tile -/

/-- The residual of the arrays as the region finds them. -/
abbrev R (c : Dev nD) : Mint.SL.Idx → EReal := Mint.resid (parr V c) (warr V c) (larr V c)

/-- An entry of tile `t`'s residual, computed from the blocks, is the residual's entry at the tile's column. -/
theorem tile_entry (c : Dev nD) (t : Fin cfg1.N) (b : Fin 256) (j : Fin 2560) :
    (∑ r : Fin 64, pblk V c t (ix2 b r) * wblk V c t (ix2 j r)) - lblk V c t (ix2 b j) = R V c (ix2 b (col t j)) := by
  rw [lblk_apply V c t b j, Finset.sum_congr rfl fun r _ => by rw [pblk_apply V c t b r, wblk_apply V c t j r]]
  rfl

/-- At the first tile the block's entry is below `z` exactly when zero is and the tile's entries are. -/
theorem outsAt_A_le_iff (c : Dev nD) (t : Fin cfg1.N) (h0 : t.val % 50 = 0) (i : S1x1.Idx) (z : EReal) :
    outsAt1 V c t.val t.isLt i ≤ z
      ↔ 0 ≤ z ∧ ∀ (b : Fin 256) (j : Fin 2560), Mint.abs' (R V c (ix2 b (col t j))) ≤ z := by
  have e : outsAt1 V c t.val t.isLt = k1_pay2 (F := Ideal) (pblk V c t) (wblk V c t) (lblk V c t) (k1_pay1 (F := Ideal)) :=
    (outsAt1_A V c t h0).trans (out_A (F := Ideal) c (grid1.coords t) (ms1_0 t) (hs1_0 t) (ms1_1 t) (hs1_1 t) (ms1_2 t) (hs1_2 t)
      (ms1_3 t) (hs1_3 t) ((hcond1_0 t).mpr h0) (pblk V c t) (wblk V c t) (lblk V c t))
  rw [e, pay2_le_iff, pay1_apply]
  refine and_congr_right fun _ => forall_congr' fun b => forall_congr' fun j => ?_
  rw [tile_entry]

/-- At a later tile it is below `z` exactly when the entry the tile before left is and the tile's entries are. -/
theorem outsAt_B_le_iff (c : Dev nD) (t : Fin cfg1.N) (h0 : ¬t.val % 50 = 0) (i : S1x1.Idx) (z : EReal) :
    outsAt1 V c t.val t.isLt i ≤ z
      ↔ outsAt1 V c (t.val - 1) (Nat.lt_of_le_of_lt (Nat.sub_le _ _) t.isLt) i ≤ z
        ∧ ∀ (b : Fin 256) (j : Fin 2560), Mint.abs' (R V c (ix2 b (col t j))) ≤ z := by
  have e : outsAt1 V c t.val t.isLt = k1_pay2 (F := Ideal) (pblk V c t) (wblk V c t) (lblk V c t)
      (outsAt1 V c (t.val - 1) (Nat.lt_of_le_of_lt (Nat.sub_le _ _) t.isLt)) :=
    (outsAt1_B V c t h0).trans (out_B (F := Ideal) c (grid1.coords t) (ms1_0 t) (hs1_0 t) (ms1_1 t) (hs1_1 t) (ms1_2 t) (hs1_2 t)
      (ms1_3 t) (hs1_3 t) (fun h => h0 ((hcond1_0 t).mp h)) (pblk V c t) (wblk V c t) (lblk V c t)
      (outsAt1 V c (t.val - 1) (Nat.lt_of_le_of_lt (Nat.sub_le _ _) t.isLt)))
  rw [e, pay2_le_iff]
  refine and_congr_right fun _ => forall_congr' fun b => forall_congr' fun j => ?_
  rw [tile_entry]

/-- THE RUNNING MAXIMUM, by its universal property: after tile `n` the block's entry is below a bound `z` exactly when
    `z` is non-negative and every residual entry in the columns of the tiles up to `n` is, in absolute value. By
    induction on the tile: the first starts from zero, each later one takes the larger of what it finds and its own. -/
theorem outsAt_le_iff (c : Dev nD) : ∀ (n : ℕ) (h : n < cfg1.N) (i : S1x1.Idx) (z : EReal),
    outsAt1 V c n h i ≤ z
      ↔ 0 ≤ z ∧ ∀ t : Fin cfg1.N, t.val ≤ n → ∀ (b : Fin 256) (j : Fin 2560), Mint.abs' (R V c (ix2 b (col t j))) ≤ z
  | 0, h, i, z => by
    refine (outsAt_A_le_iff V c ⟨0, h⟩ rfl i z).trans (and_congr_right fun _ => ?_)
    constructor
    · intro h0 t ht
      obtain rfl : t = ⟨0, h⟩ := Fin.ext (Nat.le_zero.mp ht)
      exact h0
    · intro hall
      exact hall ⟨0, h⟩ le_rfl
  | n + 1, h, i, z => by
    have hN : cfg1.N = 50 := N_1
    have hB : ¬(⟨n + 1, h⟩ : Fin cfg1.N).val % 50 = 0 := by dsimp only; omega
    refine (outsAt_B_le_iff V c ⟨n + 1, h⟩ hB i z).trans ?_
    show outsAt1 V c n _ i ≤ z ∧ _ ↔ _
    rw [outsAt_le_iff c n _ i z]
    constructor
    · rintro ⟨⟨hz, hle⟩, hn⟩
      refine ⟨hz, fun t ht => ?_⟩
      rcases Nat.lt_or_ge t.val (n + 1) with h' | h'
      · exact hle t (Nat.lt_succ_iff.mp h')
      · obtain rfl : t = ⟨n + 1, h⟩ := Fin.ext (le_antisymm ht h')
        exact hn
    · rintro ⟨hz, hle⟩
      exact ⟨⟨hz, fun t ht => hle t (Nat.le_succ_of_le ht)⟩, hle ⟨n + 1, h⟩ le_rfl⟩

/-- After the last tile the columns are all of the vocabulary, so the entry is the residual's largest absolute
    value: a value with the maximum's universal property is the maximum, and non-negativity follows from any entry. -/
theorem outsAt_last (c : Dev nD) (t : Fin cfg1.N) (h49 : t.val = 49) (i : S1x1.Idx) :
    outsAt1 V c t.val t.isLt i = Mint.absMax (R V c) := by
  have hN : cfg1.N = 50 := N_1
  refine Mint.eq_absMax_of_le_iff (R V c) _ fun z => (outsAt_le_iff V c t.val t.isLt i z).trans ?_
  constructor
  · rintro ⟨-, hle⟩ idx
    have hv : (idx 1).val < 128000 := (idx 1).isLt
    have e : idx = ix2 (idx 0) (col ⟨(idx 1).val / 2560, by rw [hN]; omega⟩ ⟨(idx 1).val % 2560, Nat.mod_lt _ (by norm_num)⟩) := by
      refine (eq_ix2 idx).trans (congrArg (ix2 (idx 0)) (Fin.ext ?_))
      show (idx 1).val = 2560 * ((idx 1).val / 2560) + (idx 1).val % 2560
      omega
    have := hle ⟨(idx 1).val / 2560, by rw [hN]; omega⟩ (by show (idx 1).val / 2560 ≤ t.val; omega) (idx 0)
      ⟨(idx 1).val % 2560, Nat.mod_lt _ (by norm_num)⟩
    exact (congrArg (fun x => Mint.abs' (R V c x) ≤ z) e).mpr this
  · intro hall
    exact ⟨(Mint.abs'_nonneg _).trans (hall (ix2 (0 : Fin 256) (0 : Fin 128000))), fun t' _ b j => hall _⟩

/-! ## The maximum array after the region -/

/-- The array the region leaves: its one entry at the residual's largest absolute value. -/
abbrev result (c : Dev nD) : Buf (Elt Ideal) ((c : Thread nD τ).loc main_v1) := fun _ => Mint.absMax (R V c)

/-- The last tile, the one point after which the block is written back. -/
abbrev tLast : Fin cfg1.N := ⟨49, by rw [show cfg1.N = 50 from N_1]; decide⟩

/-- The one write-back moves the block the last tile left: the residual's largest absolute value. -/
theorem flushed_eq (c : Dev nD) (t : Fin cfg1.N) (hf : (cfg1.win 3).flush t = true) :
    (dat1 (F := Ideal) V c).flushed 3 t = ((cfg1.win 3).blk t).view.read (Elt Ideal) (result V c) := by
  have hN : cfg1.N = 50 := N_1
  have h49 : t.val = 49 := by have := (flush1_3 t).mp hf; have := t.isLt; omega
  obtain rfl : t = tLast := Fin.ext h49
  show (cfg1.win 3).cut (grid1.coords tLast) ((dat1 (F := Ideal) V c).after 3 tLast) = _
  rw [after1_3]
  have hz' : (fun a => win1_3.index tLast a * main_v1.ty.shape.size a) = fun _ => 0 :=
    funext fun a => by fin_cases a <;> decide +kernel
  refine Eq.trans ?_ (Memref.read_access_unit_zero (Elt Ideal) main_v1 hz' (fun a => by rw [congrFun hz' a]; simp) (result V c)).symm
  funext y
  exact outsAt_last V c tLast rfl _

/-- The last tile's 1×1 block is the whole maximum array. -/
theorem cover (c : Dev nD) (i : S1x1.Idx) :
    ∃ t : Fin cfg1.N, (cfg1.win 3).flush t = true ∧ i ∈ ((cfg1.win 3).blk t).view.set :=
  ⟨tLast, (flush1_3 tLast).mpr rfl, by
    show i ∈ ((View.whole main_v1).slice (win1_3.rect tLast)).set
    rw [View.set_slice_whole, Rect.mem_set_unit]
    intro a
    have h0 : (i 0 : Nat) < 1 := (i 0).isLt
    have h1 : (i 1 : Nat) < 1 := (i 1).isLt
    match a with
    | ⟨0, _⟩ =>
      show win1_3.index tLast 0 * win1_3.size 0 ≤ (i 0 : Nat)
        ∧ (i 0 : Nat) < win1_3.index tLast 0 * win1_3.size 0 + win1_3.xsize (grid1.coords tLast) 0
      rw [show win1_3.index tLast 0 * win1_3.size 0 = 0 from by decide +kernel,
        show win1_3.xsize (grid1.coords tLast) 0 = 1 from by decide +kernel]
      omega
    | ⟨1, _⟩ =>
      show win1_3.index tLast 1 * win1_3.size 1 ≤ (i 1 : Nat)
        ∧ (i 1 : Nat) < win1_3.index tLast 1 * win1_3.size 1 + win1_3.xsize (grid1.coords tLast) 1
      rw [show win1_3.index tLast 1 * win1_3.size 1 = 0 from by decide +kernel,
        show win1_3.xsize (grid1.coords tLast) 1 = 1 from by decide +kernel]
      omega⟩

/-- The maximum array after the region: the largest absolute value of the residual of the arrays as the region finds them. -/
theorem final_max (c : Dev nD) (i : S1x1.Idx) :
    (dat1 (F := Ideal) V c).arrAt 3 cfg1.N i
      = Mint.absMax (Mint.resid (V c main_v0_0) (V c main_arg2) (V c main_arg1)) := by
  exact congrFun ((dat1 (F := Ideal) V c).arrAt_eq_of_cover 3 (result V c) (flushed_eq V c) (cover c)) i

end Cert.KernelIdeal.Region1

end
-- ==== Proof.Region2.lean ====
/-
  The third pass. Each of the 50 tiles recomputes its part of the residual P·Wᵀ − L and writes the blend
  R·s + c·(L − R·s) to its own 256×2560 block of the result, s the one entry of the scale array. The blocks tile the
  result, and every block is the restriction of one whole-array function: block t of the result is columns
  2560·t … 2560·t + 2559, the basis tile it reads is rows 2560·t … of W, the logits tile the same columns of L, and
  the projection and the scale are read whole at every tile.
-/
import proofs.«102260_j54838142435803_1_alg».proof.Proof.Gen.KernelIdeal.Frame
import proofs.«102260_j54838142435803_1_alg».proof.Proof.MintSpec
import proofs.«102260_j54838142435803_1_alg».proof.Proof.TileOps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

/- The TensorCore's buffer contents when the region is entered. -/
variable (V : (c : Dev nD) → (b : Ref sig .tc) → Buf (Elt Ideal) ((c : Thread nD τ).loc b))

theorem hz : (![0, 0] : Fin 2 → Nat) = fun _ => 0 := funext fun a => by fin_cases a <;> rfl

/-- The one index of a 1×1 array. -/
abbrev one : S1x1.Idx := ix2 (0 : Fin 1) (0 : Fin 1)

/-- The whole-array function whose restrictions the tiles write. -/
abbrev whole (c : Dev nD) : S256x128000.Idx → EReal :=
  Mint.blend (Mint.resid (V c main_v0_0) (V c main_arg2) (V c main_arg1)) (V c main_arg1) (V c main_v4 one)

/-- The index maps over the grid: the projection and the scale stay at block (0, 0); the basis tile moves down its
    rows with the point, the logits tile and the result tile along their columns. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = 0 ∧ win2_4.index t (1 : Fin 2) = t.val :=
  (by decide +kernel : ∀ t : Fin grid2.N, _)

theorem t_lt (t : Fin cfg2.N) : t.val < 50 := lt_of_lt_of_eq t.isLt (show cfg2.N = 50 from N_2)

/-- Column j of tile t is column 2560·t + j of the whole array. -/
abbrev col (t : Fin cfg2.N) (j : Fin 2560) : Fin 128000 := ⟨2560 * t.val + j.val, by have := t_lt t; have := j.isLt; omega⟩

/-- The projection's block is the projection. -/
theorem blk_proj (c : Dev nD) (t : Fin cfg2.N) (b : Fin 256) (r : Fin 64) :
    (iblk2 V c 0 t : Vec Ideal S256x64 .f32) (ix2 b r) = V c main_v0_0 (ix2 b r) := by
  obtain ⟨e0, e1, -⟩ := idx_facts t
  unfold iblk2
  rw [View.read_apply]
  show V c main_v0_0 _ = V c main_v0_0 _
  congr 1
  funext a
  apply Fin.ext
  match a with
  | ⟨0, _⟩ => show win2_0.index t (0 : Fin 2) * 256 + 1 * b.val = b.val; rw [e0]; omega
  | ⟨1, _⟩ => show win2_0.index t (1 : Fin 2) * 64 + 1 * r.val = r.val; rw [e1]; omega

/-- The basis tile at point t is rows 2560·t … of the basis. -/
theorem blk_basis (c : Dev nD) (t : Fin cfg2.N) (j : Fin 2560) (r : Fin 64) :
    (iblk2 V c 1 t : Vec Ideal S2560x64 .f32) (ix2 j r) = V c main_arg2 (ix2 (col t j) r) := by
  obtain ⟨-, -, e0, e1, -⟩ := idx_facts t
  unfold iblk2
  rw [View.read_apply]
  show V c main_arg2 _ = V c main_arg2 _
  congr 1
  funext a
  apply Fin.ext
  match a with
  | ⟨0, _⟩ => show win2_1.index t (0 : Fin 2) * 2560 + 1 * j.val = 2560 * t.val + j.val; rw [e0]; omega
  | ⟨1, _⟩ => show win2_1.index t (1 : Fin 2) * 64 + 1 * r.val = r.val; rw [e1]; omega

/-- The logits tile at point t is columns 2560·t … of the logits. -/
theorem blk_logits (c : Dev nD) (t : Fin cfg2.N) (b : Fin 256) (j : Fin 2560) :
    (iblk2 V c 2 t : Vec Ideal S256x2560 .f32) (ix2 b j) = V c main_arg1 (ix2 b (col t j)) := by
  obtain ⟨-, -, -, -, e0, e1, -⟩ := idx_facts t
  unfold iblk2
  rw [View.read_apply]
  show V c main_arg1 _ = V c main_arg1 _
  congr 1
  funext a
  apply Fin.ext
  match a with
  | ⟨0, _⟩ => show win2_2.index t (0 : Fin 2) * 256 + 1 * b.val = b.val; rw [e0]; omega
  | ⟨1, _⟩ => show win2_2.index t (1 : Fin 2) * 2560 + 1 * j.val = 2560 * t.val + j.val; rw [e1]; omega

/-- The scale's block is the scale. -/
theorem blk_scale (c : Dev nD) (t : Fin cfg2.N) :
    (iblk2 V c 3 t : Vec Ideal S1x1 .f32) one = V c main_v4 one := by
  obtain ⟨-, -, -, -, -, -, e0, e1, -⟩ := idx_facts t
  unfold iblk2
  rw [View.read_apply]
  show V c main_v4 _ = V c main_v4 _
  congr 1
  funext a
  apply Fin.ext
  match a with
  | ⟨0, _⟩ => show win2_3.index t (0 : Fin 2) * 1 + 1 * 0 = 0; rw [e0]
  | ⟨1, _⟩ => show win2_3.index t (1 : Fin 2) * 1 + 1 * 0 = 0; rw [e1]

/-- The body's one store at (b, j), from the four loaded blocks: the tile's residual entry times the scale, lerped
    towards the logits entry. -/
theorem pay_apply (p : Vec Ideal S256x64 .f32) (w : Vec Ideal S2560x64 .f32) (l : Vec Ideal S256x2560 .f32)
    (s : Vec Ideal S1x1 .f32) (b : Fin 256) (j : Fin 2560) :
    k2_pay1 (F := Ideal) p w l s (ix2 b j)
      = ((∑ r : Fin 64, p (ix2 b r) * w (ix2 j r)) - l (ix2 b j)) * s one
        + Mint.alpha * (l (ix2 b j) - ((∑ r : Fin 64, p (ix2 b r) * w (ix2 j r)) - l (ix2 b j)) * s one) := by
  have hs : broadcastTo S256x2560 s broadcasts_S1x1_S256x2560 (ix2 b j) = s one :=
    broadcastTo_apply s broadcasts_S1x1_S256x2560 (ix2 b j) one (fun a => by
      match a with
      | ⟨0, _⟩ => rfl
      | ⟨1, _⟩ => rfl)
  unfold k2_pay1
  simp only [addf, mulf, subf, broadcast, shapeCast_self, hs, Tile.tileBack_apply, truncf, Ideal.truncf_def,
    Ideal.addf_def, Ideal.mulf_def, Ideal.subf_def, Ideal.ofBits_def]

/-- What point t writes back is block t of the whole-array function. -/
theorem flushed_eq (c : Dev nD) (t : Fin cfg2.N) :
    (dat2 (F := Ideal) V c).flushed 4 t = ((cfg2.win 4).blk t).view.read (Elt Ideal) (whole V c) := by
  show (cfg2.win 4).cut (grid2.coords t) ((dat2 (F := Ideal) V c).after 4 t) = _
  rw [after2_4]
  unfold out2_4
  rw [View.canon_unit_zero hz]
  simp only [View.ld_unit_zero (S := S256x64) hz, View.ld_unit_zero (S := S2560x64) hz,
    View.ld_unit_zero (S := S256x2560) hz, View.ld_unit_zero (S := S1x1) hz]
  obtain ⟨-, -, -, -, -, -, -, -, e0, e1⟩ := idx_facts t
  funext y
  obtain ⟨b, j, rfl⟩ : ∃ (b : Fin 256) (j : Fin 2560), y = ix2 b j := ⟨y 0, y 1, eq_ix2 y⟩
  have hemb : ((cfg2.win 4).blk t).view.emb (ix2 b j) = (ix2 b (col t j) : S256x128000.Idx) := by
    funext a
    apply Fin.ext
    match a with
    | ⟨0, _⟩ => show win2_4.index t (0 : Fin 2) * 256 + 1 * b.val = b.val; rw [e0]; omega
    | ⟨1, _⟩ => show win2_4.index t (1 : Fin 2) * 2560 + 1 * j.val = 2560 * t.val + j.val; rw [e1]; omega
  show k2_pay1 (F := Ideal) (iblk2 V c 0 t) (iblk2 V c 1 t) (iblk2 V c 2 t) (iblk2 V c 3 t) (ix2 b j)
    = whole V c (((cfg2.win 4).blk t).view.emb (ix2 b j))
  rw [hemb]
  refine (pay_apply (iblk2 V c 0 t) (iblk2 V c 1 t) (iblk2 V c 2 t) (iblk2 V c 3 t) b j).trans ?_
  simp only [blk_proj V c t, blk_basis V c t, blk_logits V c t, blk_scale V c t]
  rfl

/-- An index of the result is in point t's block exactly when each coordinate is in the block's range on its axis. -/
theorem mem_blk (t : Fin cfg2.N) (i : S256x128000.Idx) :
    i ∈ ((cfg2.win 4).blk t).view.set ↔ ∀ a : Fin 2, win2_4.index t a * S256x2560.size a ≤ (i a).val ∧ (i a).val < win2_4.index t a * S256x2560.size a + S256x2560.size a := by
  show i ∈ ((View.whole main_v5).slice (win2_4.rect t)).set ↔ _
  rw [View.set_slice_whole, Rect.mem_set_unit]
  exact Iff.rfl

/-- Every entry of the result lies in the block of the point its column's tile names. -/
theorem cover (i : S256x128000.Idx) :
    ∃ t : Fin cfg2.N, (cfg2.win 4).flush t = true ∧ i ∈ ((cfg2.win 4).blk t).view.set := by
  have hi0 : (i 0).val < 256 := (i 0).isLt
  have hi1 : (i 1).val < 128000 := (i 1).isLt
  let t : Fin cfg2.N := ⟨(i 1).val / 2560, by rw [show cfg2.N = 50 from N_2]; omega⟩
  have ht : t.val = (i 1).val / 2560 := rfl
  obtain ⟨-, -, -, -, -, -, -, -, e0, e1⟩ := idx_facts t
  refine ⟨t, flush2_4 t, ?_⟩
  rw [mem_blk]
  intro a
  match a with
  | ⟨0, _⟩ => show win2_4.index t (0 : Fin 2) * 256 ≤ (i 0).val ∧ (i 0).val < win2_4.index t (0 : Fin 2) * 256 + 256; rw [e0]; omega
  | ⟨1, _⟩ => show win2_4.index t (1 : Fin 2) * 2560 ≤ (i 1).val ∧ (i 1).val < win2_4.index t (1 : Fin 2) * 2560 + 2560; rw [e1, ht]; omega

/-- The result array after the region: the blend of the residual and the logits by the scale array's one entry. -/
theorem final_blend (c : Dev nD) :
    (dat2 (F := Ideal) V c).arrAt 4 cfg2.N
      = Mint.blend (Mint.resid (V c main_v0_0) (V c main_arg2) (V c main_arg1)) (V c main_arg1)
          (V c main_v4 (ix2 (0 : Fin 1) (0 : Fin 1))) :=
  (dat2 (F := Ideal) V c).arrAt_eq_of_cover 4 (whole V c) (fun t _ => flushed_eq V c t) cover

end Cert.KernelIdeal.Region2

end
-- ==== Proof.Glue.lean ====
/-
  From the last region's exit back to the launch memory. The result buffer holds what the third pass leaves; the
  arrays that pass reads are the projection the first pass left, the two arguments as launched, and the scale the
  host computed between the passes from the two maxima: the first pass's over the larger of the second pass's and ε.
  No pass and no host operation writes an argument, the second and third pass only read the projection, and the host
  operations write their own four buffers only, so each of those arrays walks back through the boundaries to where it
  was made.
-/
import proofs.«102260_j54838142435803_1_alg».proof.Proof.Gen.KernelIdeal.Frame
import proofs.«102260_j54838142435803_1_alg».proof.Proof.MintSpec
import proofs.«102260_j54838142435803_1_alg».proof.Proof.Region0
import proofs.«102260_j54838142435803_1_alg».proof.Proof.Region1
import proofs.«102260_j54838142435803_1_alg».proof.Proof.Region2
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen

variable (m : (ℓ : Loc nD τ sig) → Buf (Elt Ideal) ℓ) (ρ : Dev nD → PrngReg)

/-- The one index of a 1×1 array. -/
abbrev one : S1x1.Idx := ix2 (0 : Fin 1) (0 : Fin 1)

/-- The logits and the basis as launched; the projection and the residual of them. -/
abbrev logits (c : Dev nD) : Mint.SL.Idx → EReal := m ((c : Thread nD τ).loc main_arg1)
abbrev basis (c : Dev nD) : Mint.SW.Idx → EReal := m ((c : Thread nD τ).loc main_arg2)
abbrev projection (c : Dev nD) : Mint.SP.Idx → EReal := Mint.proj (logits m c) (basis m c)
abbrev residual (c : Dev nD) : Mint.SL.Idx → EReal := Mint.resid (projection m c) (basis m c) (logits m c)

/-! ## After the first pass -/

theorem W1_logits (c : Dev nD) : W1 m ρ c (Proc.devRef .tc main_arg1) = logits m c :=
  (W1_arr m ρ c 0).trans (((dat0 (V0 m ρ) c).arrAt_in 0 rfl _).trans (A_eq0 (V0 m ρ) c 0))
theorem W1_basis (c : Dev nD) : W1 m ρ c (Proc.devRef .tc main_arg2) = basis m c :=
  (W1_arr m ρ c 1).trans (((dat0 (V0 m ρ) c).arrAt_in 1 rfl _).trans (A_eq0 (V0 m ρ) c 1))
theorem W1_proj (c : Dev nD) : W1 m ρ c (Proc.devRef .tc main_v0_0) = projection m c :=
  (W1_arr m ρ c 2).trans (Region0.final_proj (V0 m ρ) c)
theorem W1_max (c : Dev nD) (i : S1x1.Idx) : W1 m ρ c (Proc.devRef .tc main_v0_1) i = Mint.absMax (logits m c) :=
  (congrFun (W1_arr m ρ c 3) i).trans (Region0.final_max (V0 m ρ) c i)

/-! ## After the second pass -/

theorem W2_logits (c : Dev nD) : W2 m ρ c (Proc.devRef .tc main_arg1) = logits m c :=
  ((W2_arr m ρ c 2).trans (((dat1 (V1 m ρ) c).arrAt_in 2 rfl _).trans (A_eq1 (V1 m ρ) c 2))).trans (W1_logits m ρ c)
theorem W2_basis (c : Dev nD) : W2 m ρ c (Proc.devRef .tc main_arg2) = basis m c :=
  ((W2_arr m ρ c 1).trans (((dat1 (V1 m ρ) c).arrAt_in 1 rfl _).trans (A_eq1 (V1 m ρ) c 1))).trans (W1_basis m ρ c)
theorem W2_proj (c : Dev nD) : W2 m ρ c (Proc.devRef .tc main_v0_0) = projection m c :=
  ((W2_arr m ρ c 0).trans (((dat1 (V1 m ρ) c).arrAt_in 0 rfl _).trans (A_eq1 (V1 m ρ) c 0))).trans (W1_proj m ρ c)
theorem W2_max (c : Dev nD) (i : S1x1.Idx) : W2 m ρ c (Proc.devRef .tc main_v0_1) i = Mint.absMax (logits m c) :=
  (congrFun (W2_of_ne m ρ c main_v0_1 (by decide)) i).trans (W1_max m ρ c i)
theorem W2_rmax (c : Dev nD) (i : S1x1.Idx) : W2 m ρ c (Proc.devRef .tc main_v1) i = Mint.absMax (residual m c) := by
  refine (congrFun (W2_arr m ρ c 3) i).trans ((Region1.final_max (V1 m ρ) c i).trans ?_)
  show Mint.absMax (Mint.resid (W1 m ρ c (Proc.devRef .tc main_v0_0)) (W1 m ρ c (Proc.devRef .tc main_arg2)) (W1 m ρ c (Proc.devRef .tc main_arg1))) = _
  rw [W1_proj, W1_basis, W1_logits]

/-! ## After the host's four operations -/

theorem W3_logits (c : Dev nD) : W3 m ρ c (Proc.devRef .tc main_arg1) = logits m c :=
  (StableHlo.after_of_forall_not_mem (b := Proc.devRef .tc main_arg1) _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans (W2_logits m ρ c)
theorem W3_basis (c : Dev nD) : W3 m ρ c (Proc.devRef .tc main_arg2) = basis m c :=
  (StableHlo.after_of_forall_not_mem (b := Proc.devRef .tc main_arg2) _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans (W2_basis m ρ c)
theorem W3_proj (c : Dev nD) : W3 m ρ c (Proc.devRef .tc main_v0_0) = projection m c :=
  (StableHlo.after_of_forall_not_mem (b := Proc.devRef .tc main_v0_0) _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans (W2_proj m ρ c)

/-- The scale the host leaves: the first maximum over the larger of the second and ε. -/
theorem W3_scale (c : Dev nD) :
    W3 m ρ c (Proc.devRef .tc main_v4) one = Mint.scaleOf (Mint.absMax (logits m c)) (Mint.absMax (residual m c)) := by
  have e : W3 m ρ c (Proc.devRef .tc main_v4)
      = Host.divf (W2 m ρ c (Proc.devRef .tc main_v0_1))
          (maximumf (W2 m ρ c (Proc.devRef .tc main_v1)) (broadcastInDim S1x1 ![] bcast_S_S1x1 (constant (F := Ideal) S_ .f32 0x34000000#32))) := by
    show StableHlo.after hostOps2 (W2 m ρ c) (Proc.devRef .tc main_v4) = _
    after_results
  rw [e]
  show Ideal.div (W2 m ρ c (Proc.devRef .tc main_v0_1) one) (max (W2 m ρ c (Proc.devRef .tc main_v1) one) (Ideal.ofBits .f32 0x34000000#32)) = _
  rw [W2_max, W2_rmax]
  rfl

/-! ## After the third pass -/

/-- The result buffer at the last boundary is the mint of the two float arguments as launched. -/
theorem result_eq (c : Dev nD) :
    W4 (F := Ideal) m ρ c (Proc.devRef .tc main_v5)
      = Mint.mint (m ((c : Thread nD τ).loc main_arg1)) (m ((c : Thread nD τ).loc main_arg2)) := by
  refine (W4_arr m ρ c 4).trans ((Region2.final_blend (V3 m ρ) c).trans ?_)
  show Mint.blend (Mint.resid (W3 m ρ c (Proc.devRef .tc main_v0_0)) (W3 m ρ c (Proc.devRef .tc main_arg2)) (W3 m ρ c (Proc.devRef .tc main_arg1)))
      (W3 m ρ c (Proc.devRef .tc main_arg1)) (W3 m ρ c (Proc.devRef .tc main_v4) one) = _
  rw [W3_proj, W3_basis, W3_logits, W3_scale]
  rfl

end Cert.KernelIdeal.Glue

end
-- ==== Proof.RefValue.lean ====
/-
  The reference's result, read index by index: the host program's composed term is the mint of its two float arguments.

  The first product is the projection L·W, a sum over the 128000 vocabulary positions; the second multiplies it by the
  transposed basis, a sum over the 64 rank positions with the basis read at (column, rank); subtracting the logits gives
  the residual. Each of the two reductions takes the maximum, from −∞, of the absolute values of all the entries of its
  operand: below a bound exactly when every absolute value is, so it is the array's largest absolute value. The rest is
  entry by entry: the quotient of the two maxima (the second raised to at least ε), the product, the difference from
  the logits, the product with the blend weight, the sum.
-/
import proofs.«102260_j54838142435803_1_alg».proof.Defs
import proofs.«102260_j54838142435803_1_alg».proof.Proof.Gen.ReferenceIdeal.Run
import proofs.«102260_j54838142435803_1_alg».proof.Proof.Gen.ReferenceIdeal.Read
import proofs.«102260_j54838142435803_1_alg».proof.Proof.MintSpec
import Idealize.ShloMosaic.PureOps.Ideal.Laws
import Idealize.ShloMosaic.PureOps.Reduce
import Idealize.ShloMosaic.Lib.ValueIdx

noncomputable section

namespace Cert.ReferenceIdeal.MintValue

open Idealize.ShloMosaic Idealize.ShloMosaic.ValueIdx Cert.ReferenceIdeal Cert.ReferenceIdeal.Gen Cert.ReferenceIdeal.Read

/-- The first product reads the logits at (row, k) and the basis at (k, rank). -/
theorem lidx0 (i : S256x64.Idx) (k : Fin 128000) : lidx_main_v0 i k = ix2 (i 0) k :=
  funext fun a => by
    match a with
    | ⟨0, _⟩ => rfl
    | ⟨1, _⟩ => rfl
theorem ridx0 (i : S256x64.Idx) (k : Fin 128000) : ridx_main_v0 i k = ix2 k (i 1) :=
  funext fun a => by
    match a with
    | ⟨0, _⟩ => rfl
    | ⟨1, _⟩ => rfl

/-- The second product reads the projection at (row, r) and, through the transpose, the basis at (column, r). -/
theorem lidx2 (i : S256x128000.Idx) (k : Fin 64) : lidx_main_v2 i k = ix2 (i 0) k :=
  funext fun a => by
    match a with
    | ⟨0, _⟩ => rfl
    | ⟨1, _⟩ => rfl
theorem ridx2 (i : S256x128000.Idx) (k : Fin 64) : idx_main_v1 (ridx_main_v2 i k) = ix2 (i 1) k :=
  funext fun a => by
    match a with
    | ⟨0, _⟩ => rfl
    | ⟨1, _⟩ => rfl

/-- The first product is the projection. -/
theorem proj_eq (x1 : (⟨S256x128000, .f32⟩ : BufTy).Contents (Elt Ideal)) (x2 : (⟨S128000x64, .f32⟩ : BufTy).Contents (Elt Ideal)) :
    val_main_v0 (F := Ideal) x1 x2 = Mint.proj x1 x2 := by
  funext i
  rw [val_main_v0_apply]
  simp only [lidx0, ridx0]
  rfl

/-- The second product minus the logits is the residual of the projection. -/
theorem resid_eq (x1 : (⟨S256x128000, .f32⟩ : BufTy).Contents (Elt Ideal)) (x2 : (⟨S128000x64, .f32⟩ : BufTy).Contents (Elt Ideal)) :
    val_main_v3 (F := Ideal) x1 x2 = Mint.resid (Mint.proj x1 x2) x2 x1 := by
  funext i
  rw [val_main_v3_apply, val_main_v2_apply]
  simp only [val_main_v1_apply, lidx2, ridx2, proj_eq, Ideal.subf_def]
  rfl

/-- The word of −∞ denotes the bottom of the extended reals. -/
theorem negInf : Ideal.ofBits .f32 0xFF800000#32 = (⊥ : EReal) := by
  simp [Ideal.ofBits, Ideal.ieee]

/-- The maximum, from −∞, of the absolute values of all entries is the largest absolute value. -/
theorem reduce_max_eq (X : (⟨S256x128000, .f32⟩ : BufTy).Contents (Elt Ideal)) (j : S_.Idx) :
    Host.reduce FloatOps.maximumf (Host.absf X) (constant (F := Ideal) S_ .f32 0xFF800000#32) reducesTo_S256x128000_S_d0_1 h_S_ j
      = Mint.absMax X := by
  rw [Host.reduce_eq_fold]
  have hall : (Finset.univ.filter fun i : S256x128000.Idx => reducesTo_S256x128000_S_d0_1.drop i = j) = Finset.univ :=
    Finset.filter_true_of_mem fun i _ => funext fun a => a.elim0
  rw [hall]
  apply Mint.eq_absMax_of_le_iff
  intro z
  show (Finset.univ.fold max (Ideal.ofBits .f32 0xFF800000#32) (fun i => Mint.abs' (X i))) ≤ z ↔ _
  rw [Finset.fold_max_le, negInf]
  simp

/-- The quotient of the two maxima is the scale. -/
theorem scale_eq (x1 : (⟨S256x128000, .f32⟩ : BufTy).Contents (Elt Ideal)) (x2 : (⟨S128000x64, .f32⟩ : BufTy).Contents (Elt Ideal)) (j : S_.Idx) :
    val_main_v9 (F := Ideal) x1 x2 j
      = Mint.scaleOf (Mint.absMax x1) (Mint.absMax (Mint.resid (Mint.proj x1 x2) x2 x1)) := by
  rw [val_main_v9_apply, val_main_v8_apply, val_main_cst_1_apply]
  unfold val_main_v5 val_main_v7 val_main_v4 val_main_v6 val_main_cst val_main_cst_0
  rw [reduce_max_eq, reduce_max_eq, resid_eq]
  rfl

/-- The reference's result is the mint of its two float arguments. -/
theorem ref_eq (x1 : (⟨S256x128000, .f32⟩ : BufTy).Contents (Elt Ideal)) (x2 : (⟨S128000x64, .f32⟩ : BufTy).Contents (Elt Ideal)) :
    val_main_v15 (F := Ideal) x1 x2 = Mint.mint x1 x2 := by
  funext i
  rw [val_main_v15_apply, val_main_v14_apply, val_main_v13_apply, val_main_cst_2_apply, val_main_v12_apply,
    val_main_v11_apply, val_main_v10_apply, scale_eq, resid_eq]
  rfl

end Cert.ReferenceIdeal.MintValue

end
-- ==== Proof.lean ====
/-
  The rescaled low-rank mint: a three-pass kernel against its jnp reference, equal over the extended reals.

  With L the logits (256 × 128000) and W the basis (128000 × 64), both programs compute
      R = (L·W)·Wᵀ − L,   s = max|L| / max(max|R|, ε),   result = R·s + c·(L − R·s),
  c the f32 word both write for 0.4 and ε the f32 machine epsilon. The reference does it in one sweep. The kernel cannot
  write a single entry before it knows the two global maxima, so it sweeps the 50 vocabulary tiles three times: the
  first pass accumulates L·W tile by tile (each tile's product added to a block that starts at zero) beside a running
  maximum of |L|; the second recomputes R tile by tile and keeps a running maximum of |R|; the host forms s; the third
  recomputes R once more and writes the blend, tile by tile. The products go through bf16, which at the ideal instance is
  the identity.

  Three laws join the two sides. A sum over 128000 positions is the sum over 50 tiles of the tiles' sums of 2560.
  A maximum of absolute values over the whole array is the running maximum over the tiles of the tiles' maxima — each
  carried by its universal property, below a bound exactly when every entry is — and starting the running maximum
  from zero instead of −∞ changes nothing, absolute values being non-negative and the array not empty. Everything else
  is the same operation on the same entries. None of these laws needs the inputs to be finite, so the precondition is
  never opened.

  The three frames are the generated ones (the reference's is its generated run with the result dropped). The ideal pass
  rewrote nothing, so the kernel's idealization is its own text. For the value claim the kernel's run is the generated
  frame's launch with the result buffer named, read back region by region to the launch memory; the reference's run is
  the generated one, read one operation at a time.
-/
import proofs.«102260_j54838142435803_1_alg».proof.Defs
import proofs.«102260_j54838142435803_1_alg».proof.Proof.Gen.Kernel
import proofs.«102260_j54838142435803_1_alg».proof.Proof.Gen.Kernel.Frame
import proofs.«102260_j54838142435803_1_alg».proof.Proof.Gen.KernelIdeal
import proofs.«102260_j54838142435803_1_alg».proof.Proof.Gen.KernelIdeal.Frame
import proofs.«102260_j54838142435803_1_alg».proof.Proof.Gen.ReferenceIdeal
import proofs.«102260_j54838142435803_1_alg».proof.Proof.Gen.ReferenceIdeal.Run
import proofs.«102260_j54838142435803_1_alg».proof.Proof.Gen.ReferenceIdeal.Read
import proofs.«102260_j54838142435803_1_alg».proof.Proof.Gen.Pre_finite_inputs
import proofs.«102260_j54838142435803_1_alg».proof.Proof.MintSpec
import proofs.«102260_j54838142435803_1_alg».proof.Proof.ValueRun
import proofs.«102260_j54838142435803_1_alg».proof.Proof.Glue
import proofs.«102260_j54838142435803_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the mint of the two float arguments. -/
theorem algebraic : Cert.algebraic_KernelIdeal_ReferenceIdeal := by
  intro m ρ m' ρ' _ hagree
  refine ⟨fun c => Cert.Mint.mint (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Glue.result_eq m ρ c), (h c).2⟩)
      (Cert.KernelIdeal.ValueRun.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.MintValue.ref_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
